-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S14x10000x1536 : Shape := ⟨3, ![14, 10000, 1536]⟩
abbrev S14x1536x128 : Shape := ⟨3, ![14, 1536, 128]⟩
abbrev S14x128 : Shape := ⟨2, ![14, 128]⟩
abbrev S1792x128 : Shape := ⟨2, ![1792, 128]⟩
abbrev S128 : Shape := ⟨1, ![128]⟩
abbrev S8192 : Shape := ⟨1, ![8192]⟩
abbrev S_ : Shape := ⟨0, ![]⟩

class Facts : Prop where
  bcast_S_S14x10000x1536 : S_.BroadcastsInDim S14x10000x1536 (![] : Fin 0 → Fin S14x10000x1536.rank)
  reducesTo_S14x10000x1536_S_d0_1_2 : S14x10000x1536.ReducesTo [0, 1, 2] S_
  h_S_ : 0 < S_.numel
  bcast_S_S14x1536x128 : S_.BroadcastsInDim S14x1536x128 (![] : Fin 0 → Fin S14x1536x128.rank)
  reducesTo_S14x1536x128_S_d0_1_2 : S14x1536x128.ReducesTo [0, 1, 2] S_
  bcast_S_S14x128 : S_.BroadcastsInDim S14x128 (![] : Fin 0 → Fin S14x128.rank)
  reducesTo_S14x128_S_d0_1 : S14x128.ReducesTo [0, 1] S_
  bcast_S_S1792x128 : S_.BroadcastsInDim S1792x128 (![] : Fin 0 → Fin S1792x128.rank)
  reducesTo_S1792x128_S_d0_1 : S1792x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S1792x128 1) : IVec S_ 1 :=
  let main_c_5 : IVec S_ 1 := constantI S_ 1 1#1
  let main_v17 : IVec S_ 1 := (fun x v => Host.reduce IntOp.andi x v reducesTo_S1792x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S14x10000x1536 .f32) (main_arg1 : FVec F S14x1536x128 .f32) (main_arg2 : FVec F S14x128 .f32) (main_arg3 : FVec F S1792x128 .f32) (main_arg4 : FVec F S128 .f32) (main_arg5 : IVec S8192 32) : IVec S_ 1 :=
  let main_v0 : FVec F S14x10000x1536 .f32 := Host.absf main_arg0
  let main_cst : FVec F S_ .f32 := constant S_ .f32 0x7F800000#32
  let main_v1 : FVec F S14x10000x1536 .f32 := broadcastInDim S14x10000x1536 ![] bcast_S_S14x10000x1536 main_cst
  let main_v2 : IVec S14x10000x1536 1 := cmpf .olt main_v0 main_v1
  let main_c : IVec S_ 1 := constantI S_ 1 1#1
  let main_v3 : IVec S_ 1 := (fun x v => Host.reduce IntOp.andi x v reducesTo_S14x10000x1536_S_d0_1_2 h_S_) main_v2 main_c
  let main_v4 : FVec F S14x1536x128 .f32 := Host.absf main_arg1
  let main_cst_0 : FVec F S_ .f32 := constant S_ .f32 0x7F800000#32
  let main_v5 : FVec F S14x1536x128 .f32 := broadcastInDim S14x1536x128 ![] bcast_S_S14x1536x128 main_cst_0
  let main_v6 : IVec S14x1536x128 1 := cmpf .olt main_v4 main_v5
  let main_c_1 : IVec S_ 1 := constantI S_ 1 1#1
  let main_v7 : IVec S_ 1 := (fun x v => Host.reduce IntOp.andi x v reducesTo_S14x1536x128_S_d0_1_2 h_S_) main_v6 main_c_1
  let main_v8 : IVec S_ 1 := andi main_v3 main_v7
  let main_v9 : FVec F S14x128 .f32 := Host.absf main_arg2
  let main_cst_2 : FVec F S_ .f32 := constant S_ .f32 0x7F800000#32
  let main_v10 : FVec F S14x128 .f32 := broadcastInDim S14x128 ![] bcast_S_S14x128 main_cst_2
  let main_v11 : IVec S14x128 1 := cmpf .olt main_v9 main_v10
  let main_c_3 : IVec S_ 1 := constantI S_ 1 1#1
  let main_v12 : IVec S_ 1 := (fun x v => Host.reduce IntOp.andi x v reducesTo_S14x128_S_d0_1 h_S_) main_v11 main_c_3
  let main_v13 : IVec S_ 1 := andi main_v8 main_v12
  let main_v14 : FVec F S1792x128 .f32 := Host.absf main_arg3
  let main_cst_4 : FVec F S_ .f32 := constant S_ .f32 0x7F800000#32
  let main_v15 : FVec F S1792x128 .f32 := broadcastInDim S1792x128 ![] bcast_S_S1792x128 main_cst_4
  let main_v16 : IVec S1792x128 1 := cmpf .olt main_v14 main_v15
  fn_part1 (F := F) main_arg4 main_v13 main_v16
-- ==== Kernel.lean ====
abbrev S14x10000x1536 : Shape := ⟨3, ![14, 10000, 1536]⟩
abbrev S14x1536x128 : Shape := ⟨3, ![14, 1536, 128]⟩
abbrev S14x128 : Shape := ⟨2, ![14, 128]⟩
abbrev S1792x128 : Shape := ⟨2, ![1792, 128]⟩
abbrev S128 : Shape := ⟨1, ![128]⟩
abbrev S8192 : Shape := ⟨1, ![8192]⟩
abbrev S_ : Shape := ⟨0, ![]⟩
abbrev S8192x1 : Shape := ⟨2, ![8192, 1]⟩
abbrev S14x8192x1536 : Shape := ⟨3, ![14, 8192, 1536]⟩
abbrev S8192x128 : Shape := ⟨2, ![8192, 128]⟩
abbrev S14x256x1536 : Shape := ⟨3, ![14, 256, 1536]⟩
abbrev S256x128 : Shape := ⟨2, ![256, 128]⟩
abbrev S1x256x1536 : Shape := ⟨3, ![1, 256, 1536]⟩
abbrev S256x1536 : Shape := ⟨2, ![256, 1536]⟩
abbrev S1x1536x128 : Shape := ⟨3, ![1, 1536, 128]⟩
abbrev S1536x128 : Shape := ⟨2, ![1536, 128]⟩
abbrev S1x128 : Shape := ⟨2, ![1, 128]⟩
abbrev S256x1792 : Shape := ⟨2, ![256, 1792]⟩

abbrev nBuf : Space → Nat
  | .hbm => 19
  | .vmem => 8
  | .smem => 0
  | _ => 0

abbrev bufTy : (tb : Table) → Fin (tcTables nBuf tb) → BufTy
  | .hbm, ⟨0, _⟩ => ⟨S14x10000x1536, .f32⟩
  | .hbm, ⟨1, _⟩ => ⟨S14x1536x128, .f32⟩
  | .hbm, ⟨2, _⟩ => ⟨S14x128, .f32⟩
  | .hbm, ⟨3, _⟩ => ⟨S1792x128, .f32⟩
  | .hbm, ⟨4, _⟩ => ⟨S128, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S14x8192x1536, .f32⟩
  | .hbm, ⟨15, _⟩ => ⟨S14x8192x1536, .bf16⟩
  | .hbm, ⟨16, _⟩ => ⟨S14x1536x128, .bf16⟩
  | .hbm, ⟨17, _⟩ => ⟨S1792x128, .bf16⟩
  | .hbm, ⟨18, _⟩ => ⟨S8192x128, .f32⟩
  | .local _ .vmem, ⟨0, _⟩ => ⟨S14x256x1536, .bf16⟩
  | .local _ .vmem, ⟨1, _⟩ => ⟨S14x256x1536, .bf16⟩
  | .local _ .vmem, ⟨2, _⟩ => ⟨S14x1536x128, .bf16⟩
  | .local _ .vmem, ⟨3, _⟩ => ⟨S14x128, .f32⟩
  | .local _ .vmem, ⟨4, _⟩ => ⟨S1792x128, .bf16⟩
  | .local _ .vmem, ⟨5, _⟩ => ⟨S128, .f32⟩
  | .local _ .vmem, ⟨6, _⟩ => ⟨S256x128, .f32⟩
  | .local _ .vmem, ⟨7, _⟩ => ⟨S256x128, .f32⟩
  | _, _ => ⟨S14x10000x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x1536x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S14x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  inb_S14x256x1536_S1x256x1536_0_0_0 : ∀ a, (![0, 0, 0] : Fin 3 → Nat) a + S1x256x1536.size a ≤ S14x256x1536.size a
  h_S1x256x1536 : 0 < S1x256x1536.numel
  shapeCasts_S1x256x1536_S256x1536 : S1x256x1536.ShapeCasts S256x1536
  inb_S14x1536x128_S1x1536x128_0_0_0 : ∀ a, (![0, 0, 0] : Fin 3 → Nat) a + S1x1536x128.size a ≤ S14x1536x128.size a
  h_S1x1536x128 : 0 < S1x1536x128.numel
  shapeCasts_S1x1536x128_S1536x128 : S1x1536x128.ShapeCasts S1536x128
  inb_S14x128_S1x128_0_0 : ∀ a, (![0, 0] : Fin 2 → Nat) a + S1x128.size a ≤ S14x128.size a
  h_S1x128 : 0 < S1x128.numel
  shapeCasts_S1x128_S128 : S1x128.ShapeCasts S128
  shapeCasts_S128_S1x128 : S128.ShapeCasts S1x128
  broadcasts_S1x128_S256x128 : S1x128.Broadcasts S256x128
  inb_S14x256x1536_S1x256x1536_1_0_0 : ∀ a, (![1, 0, 0] : Fin 3 → Nat) a + S1x256x1536.size a ≤ S14x256x1536.size a
  inb_S14x1536x128_S1x1536x128_1_0_0 : ∀ a, (![1, 0, 0] : Fin 3 → Nat) a + S1x1536x128.size a ≤ S14x1536x128.size a
  inb_S14x128_S1x128_1_0 : ∀ a, (![1, 0] : Fin 2 → Nat) a + S1x128.size a ≤ S14x128.size a
  inb_S14x256x1536_S1x256x1536_2_0_0 : ∀ a, (![2, 0, 0] : Fin 3 → Nat) a + S1x256x1536.size a ≤ S14x256x1536.size a
  inb_S14x1536x128_S1x1536x128_2_0_0 : ∀ a, (![2, 0, 0] : Fin 3 → Nat) a + S1x1536x128.size a ≤ S14x1536x128.size a
  inb_S14x128_S1x128_2_0 : ∀ a, (![2, 0] : Fin 2 → Nat) a + S1x128.size a ≤ S14x128.size a
  inb_S14x256x1536_S1x256x1536_3_0_0 : ∀ a, (![3, 0, 0] : Fin 3 → Nat) a + S1x256x1536.size a ≤ S14x256x1536.size a
  inb_S14x1536x128_S1x1536x128_3_0_0 : ∀ a, (![3, 0, 0] : Fin 3 → Nat) a + S1x1536x128.size a ≤ S14x1536x128.size a
  inb_S14x128_S1x128_3_0 : ∀ a, (![3, 0] : Fin 2 → Nat) a + S1x128.size a ≤ S14x128.size a
  inb_S14x256x1536_S1x256x1536_4_0_0 : ∀ a, (![4, 0, 0] : Fin 3 → Nat) a + S1x256x1536.size a ≤ S14x256x1536.size a
  inb_S14x1536x128_S1x1536x128_4_0_0 : ∀ a, (![4, 0, 0] : Fin 3 → Nat) a + S1x1536x128.size a ≤ S14x1536x128.size a
  inb_S14x128_S1x128_4_0 : ∀ a, (![4, 0] : Fin 2 → Nat) a + S1x128.size a ≤ S14x128.size a
  inb_S14x256x1536_S1x256x1536_5_0_0 : ∀ a, (![5, 0, 0] : Fin 3 → Nat) a + S1x256x1536.size a ≤ S14x256x1536.size a
  inb_S14x1536x128_S1x1536x128_5_0_0 : ∀ a, (![5, 0, 0] : Fin 3 → Nat) a + S1x1536x128.size a ≤ S14x1536x128.size a
  inb_S14x128_S1x128_5_0 : ∀ a, (![5, 0] : Fin 2 → Nat) a + S1x128.size a ≤ S14x128.size a
  inb_S14x256x1536_S1x256x1536_6_0_0 : ∀ a, (![6, 0, 0] : Fin 3 → Nat) a + S1x256x1536.size a ≤ S14x256x1536.size a
  inb_S14x1536x128_S1x1536x128_6_0_0 : ∀ a, (![6, 0, 0] : Fin 3 → Nat) a + S1x1536x128.size a ≤ S14x1536x128.size a
  inb_S14x128_S1x128_6_0 : ∀ a, (![6, 0] : Fin 2 → Nat) a + S1x128.size a ≤ S14x128.size a
  inb_S14x256x1536_S1x256x1536_7_0_0 : ∀ a, (![7, 0, 0] : Fin 3 → Nat) a + S1x256x1536.size a ≤ S14x256x1536.size a
  inb_S14x1536x128_S1x1536x128_7_0_0 : ∀ a, (![7, 0, 0] : Fin 3 → Nat) a + S1x1536x128.size a ≤ S14x1536x128.size a
  inb_S14x128_S1x128_7_0 : ∀ a, (![7, 0] : Fin 2 → Nat) a + S1x128.size a ≤ S14x128.size a
  inb_S14x256x1536_S1x256x1536_8_0_0 : ∀ a, (![8, 0, 0] : Fin 3 → Nat) a + S1x256x1536.size a ≤ S14x256x1536.size a
  inb_S14x1536x128_S1x1536x128_8_0_0 : ∀ a, (![8, 0, 0] : Fin 3 → Nat) a + S1x1536x128.size a ≤ S14x1536x128.size a
  inb_S14x128_S1x128_8_0 : ∀ a, (![8, 0] : Fin 2 → Nat) a + S1x128.size a ≤ S14x128.size a
  inb_S14x256x1536_S1x256x1536_9_0_0 : ∀ a, (![9, 0, 0] : Fin 3 → Nat) a + S1x256x1536.size a ≤ S14x256x1536.size a
  inb_S14x1536x128_S1x1536x128_9_0_0 : ∀ a, (![9, 0, 0] : Fin 3 → Nat) a + S1x1536x128.size a ≤ S14x1536x128.size a
  inb_S14x128_S1x128_9_0 : ∀ a, (![9, 0] : Fin 2 → Nat) a + S1x128.size a ≤ S14x128.size a
  inb_S14x256x1536_S1x256x1536_10_0_0 : ∀ a, (![10, 0, 0] : Fin 3 → Nat) a + S1x256x1536.size a ≤ S14x256x1536.size a
  inb_S14x1536x128_S1x1536x128_10_0_0 : ∀ a, (![10, 0, 0] : Fin 3 → Nat) a + S1x1536x128.size a ≤ S14x1536x128.size a
  inb_S14x128_S1x128_10_0 : ∀ a, (![10, 0] : Fin 2 → Nat) a + S1x128.size a ≤ S14x128.size a
  inb_S14x256x1536_S1x256x1536_11_0_0 : ∀ a, (![11, 0, 0] : Fin 3 → Nat) a + S1x256x1536.size a ≤ S14x256x1536.size a
  inb_S14x1536x128_S1x1536x128_11_0_0 : ∀ a, (![11, 0, 0] : Fin 3 → Nat) a + S1x1536x128.size a ≤ S14x1536x128.size a
  inb_S14x128_S1x128_11_0 : ∀ a, (![11, 0] : Fin 2 → Nat) a + S1x128.size a ≤ S14x128.size a
  inb_S14x256x1536_S1x256x1536_12_0_0 : ∀ a, (![12, 0, 0] : Fin 3 → Nat) a + S1x256x1536.size a ≤ S14x256x1536.size a
  inb_S14x1536x128_S1x1536x128_12_0_0 : ∀ a, (![12, 0, 0] : Fin 3 → Nat) a + S1x1536x128.size a ≤ S14x1536x128.size a
  inb_S14x128_S1x128_12_0 : ∀ a, (![12, 0] : Fin 2 → Nat) a + S1x128.size a ≤ S14x128.size a
  inb_S14x256x1536_S1x256x1536_13_0_0 : ∀ a, (![13, 0, 0] : Fin 3 → Nat) a + S1x256x1536.size a ≤ S14x256x1536.size a
  inb_S14x1536x128_S1x1536x128_13_0_0 : ∀ a, (![13, 0, 0] : Fin 3 → Nat) a + S1x1536x128.size a ≤ S14x1536x128.size a
  inb_S14x128_S1x128_13_0 : ∀ a, (![13, 0] : Fin 2 → Nat) a + S1x128.size a ≤ S14x128.size a
  concatenates_S256x128_S256x128_S256x128_S256x128_S256x128_S256x128_S256x128_S256x128_S256x128_S256x128_S256x128_S256x128_S256x128_S256x128_S256x1792_d1 : Shape.Concatenates [S256x128, S256x128, S256x128, S256x128, S256x128, S256x128, S256x128, S256x128, S256x128, S256x128, S256x128, S256x128, S256x128, S256x128] S256x1792 1
  inb_S1792x128_S1792x128_0_0 : ∀ a, (![0, 0] : Fin 2 → Nat) a + S1792x128.size a ≤ S1792x128.size a
  h_S1792x128 : 0 < S1792x128.numel
  shapeCasts_S1792x128_S1792x128 : S1792x128.ShapeCasts S1792x128
  inb_S128_S128_0 : ∀ a, (![0] : Fin 1 → Nat) a + S128.size a ≤ S128.size a
  h_S128 : 0 < S128.numel
  inb_S256x128_S256x128_0_0 : ∀ a, (![0, 0] : Fin 2 → Nat) a + S256x128.size a ≤ S256x128.size a
  h_S256x128 : 0 < S256x128.numel
  gather_S14x10000x1536_S8192x1_S14x8192x1536_02_1_n_n_1_1_1411536_wf : GatherDims.WF S14x10000x1536 S8192x1 S14x8192x1536 [0, 2] [1] [] [1] [] 1 ![14, 1, 1536]
  dot_S256x1536_S1536x128_S256x128_1_0_0_1_n_n_wf : DotDims.WF S256x1536 S1536x128 S256x128 [1] [0] [0] [1] [] []
  dot_S256x1792_S1792x128_S256x128_1_0_0_1_n_n_wf : DotDims.WF S256x1792 S1792x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S14x256x1536.size a ≤ S14x8192x1536.size a
  hwx0_0 : ∀ i : grid0.Coords, EltTy.bits .bf16 = 32 ∨ (Rect.block (s := S14x8192x1536) S14x256x1536.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x1536x128.size a ≤ S14x1536x128.size a
  hwx0_1 : ∀ i : grid0.Coords, EltTy.bits .bf16 = 32 ∨ (Rect.block (s := S14x1536x128) S14x1536x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S14x128.size a ≤ S14x128.size a
  hwx0_2 : ∀ i : grid0.Coords, EltTy.bits .f32 = 32 ∨ (Rect.block (s := S14x128) S14x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1792x128.size a ≤ S1792x128.size a
  hwx0_3 : ∀ i : grid0.Coords, EltTy.bits .bf16 = 32 ∨ (Rect.block (s := S1792x128) S1792x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S8192x128.size a
  hwx0_5 : ∀ i : grid0.Coords, EltTy.bits .f32 = 32 ∨ (Rect.block (s := S8192x128) S256x128.size (cc0_transform_5 i) (hinb0_5 i)).WholeWords (EltTy.packing .f32)

variable [Facts₀]

def gather_S14x10000x1536_S8192x1_S14x8192x1536_02_1_n_n_1_1_1411536 : GatherDims S14x10000x1536 S8192x1 S14x8192x1536 where
  offsetDims := [0, 2]
  collapsedSliceDims := [1]
  operandBatchingDims := []
  startIndicesBatchingDims := []
  startIndexMap := [1]
  indexVectorDim := 1
  sliceSizes := ![14, 1, 1536]
  wf := gather_S14x10000x1536_S8192x1_S14x8192x1536_02_1_n_n_1_1_1411536_wf
def dot_S256x1536_S1536x128_S256x128_1_0_0_1_n_n : DotDims S256x1536 S1536x128 S256x128 where
  lhsContracting := [1]
  rhsContracting := [0]
  lhsNonContracting := [0]
  rhsNonContracting := [1]
  lhsBatch := []
  rhsBatch := []
  wf := dot_S256x1536_S1536x128_S256x128_1_0_0_1_n_n_wf
def dot_S256x1792_S1792x128_S256x128_1_0_0_1_n_n : DotDims S256x1792 S1792x128 S256x128 where
  lhsContracting := [1]
  rhsContracting := [0]
  lhsNonContracting := [0]
  rhsNonContracting := [1]
  lhsBatch := []
  rhsBatch := []
  wf := dot_S256x1792_S1792x128_S256x128_1_0_0_1_n_n_wf

abbrev win0_0 : Pipeline.Window sig grid0 :=
  Pipeline.Window.ofSpec (Memref.whole main_v7) S14x256x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S14x1536x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S14x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1792x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S14x10000x1536 : Shape := ⟨3, ![14, 10000, 1536]⟩
abbrev S14x1536x128 : Shape := ⟨3, ![14, 1536, 128]⟩
abbrev S14x128 : Shape := ⟨2, ![14, 128]⟩
abbrev S1792x128 : Shape := ⟨2, ![1792, 128]⟩
abbrev S128 : Shape := ⟨1, ![128]⟩
abbrev S8192 : Shape := ⟨1, ![8192]⟩
abbrev S_ : Shape := ⟨0, ![]⟩
abbrev S8192x1 : Shape := ⟨2, ![8192, 1]⟩
abbrev S14x8192x1536 : Shape := ⟨3, ![14, 8192, 1536]⟩
abbrev S14x8192x128 : Shape := ⟨3, ![14, 8192, 128]⟩
abbrev S14x1x128 : Shape := ⟨3, ![14, 1, 128]⟩
abbrev S8192x14x128 : Shape := ⟨3, ![8192, 14, 128]⟩
abbrev S8192x1792 : Shape := ⟨2, ![8192, 1792]⟩
abbrev S8192x128 : Shape := ⟨2, ![8192, 128]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S14x10000x1536, .f32⟩
  | .hbm, ⟨1, _⟩ => ⟨S14x1536x128, .f32⟩
  | .hbm, ⟨2, _⟩ => ⟨S14x128, .f32⟩
  | .hbm, ⟨3, _⟩ => ⟨S1792x128, .f32⟩
  | .hbm, ⟨4, _⟩ => ⟨S128, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S14x8192x1536, .f32⟩
  | .hbm, ⟨15, _⟩ => ⟨S14x8192x128, .f32⟩
  | .hbm, ⟨16, _⟩ => ⟨S14x1x128, .f32⟩
  | .hbm, ⟨17, _⟩ => ⟨S14x8192x128, .f32⟩
  | .hbm, ⟨18, _⟩ => ⟨S14x8192x128, .f32⟩
  | .hbm, ⟨19, _⟩ => ⟨S_, .f32⟩
  | .hbm, ⟨20, _⟩ => ⟨S_, .f32⟩
  | .hbm, ⟨21, _⟩ => ⟨S14x8192x128, .f32⟩
  | .hbm, ⟨22, _⟩ => ⟨S14x8192x128, .i1⟩
  | .hbm, ⟨23, _⟩ => ⟨S_, .f32⟩
  | .hbm, ⟨24, _⟩ => ⟨S14x8192x128, .f32⟩
  | .hbm, ⟨25, _⟩ => ⟨S14x8192x128, .f32⟩
  | .hbm, ⟨26, _⟩ => ⟨S14x8192x128, .f32⟩
  | .hbm, ⟨27, _⟩ => ⟨S8192x14x128, .f32⟩
  | .hbm, ⟨28, _⟩ => ⟨S8192x1792, .f32⟩
  | .hbm, ⟨29, _⟩ => ⟨S8192x128, .f32⟩
  | .hbm, ⟨30, _⟩ => ⟨S1x128, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S_, .f32⟩
  | .hbm, ⟨35, _⟩ => ⟨S8192x128, .f32⟩
  | .hbm, ⟨36, _⟩ => ⟨S8192x128, .i1⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S8192x128, .f32⟩
  | _, _ => ⟨S14x10000x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S14x128_S14x1x128_0_2 : S14x128.BroadcastsInDim S14x1x128 (![0, 2] : Fin 2 → Fin S14x1x128.rank)
  bcast_S14x1x128_S14x8192x128_0_1_2 : S14x1x128.BroadcastsInDim S14x8192x128 (![0, 1, 2] : Fin 3 → Fin S14x8192x128.rank)
  bcast_S_S14x8192x128 : S_.BroadcastsInDim S14x8192x128 (![] : Fin 0 → Fin S14x8192x128.rank)
  transposes_S14x8192x128_S8192x14x128_1_0_2 : S14x8192x128.Transposes [1, 0, 2] S8192x14x128
  shapeCasts_S8192x14x128_S8192x1792 : S8192x14x128.ShapeCasts S8192x1792
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  gather_S14x10000x1536_S8192x1_S14x8192x1536_02_1_n_n_1_1_1411536_wf : GatherDims.WF S14x10000x1536 S8192x1 S14x8192x1536 [0, 2] [1] [] [1] [] 1 ![14, 1, 1536]
  dot_S14x8192x1536_S14x1536x128_S14x8192x128_2_1_1_2_0_0_wf : DotDims.WF S14x8192x1536 S14x1536x128 S14x8192x128 [2] [1] [1] [2] [0] [0]
  dot_S8192x1792_S1792x128_S8192x128_1_0_0_1_n_n_wf : DotDims.WF S8192x1792 S1792x128 S8192x128 [1] [0] [0] [1] [] []

variable [Facts₀]

def gather_S14x10000x1536_S8192x1_S14x8192x1536_02_1_n_n_1_1_1411536 : GatherDims S14x10000x1536 S8192x1 S14x8192x1536 where
  offsetDims := [0, 2]
  collapsedSliceDims := [1]
  operandBatchingDims := []
  startIndicesBatchingDims := []
  startIndexMap := [1]
  indexVectorDim := 1
  sliceSizes := ![14, 1, 1536]
  wf := gather_S14x10000x1536_S8192x1_S14x8192x1536_02_1_n_n_1_1_1411536_wf
def dot_S14x8192x1536_S14x1536x128_S14x8192x128_2_1_1_2_0_0 : DotDims S14x8192x1536 S14x1536x128 S14x8192x128 where
  lhsContracting := [2]
  rhsContracting := [1]
  lhsNonContracting := [1]
  rhsNonContracting := [2]
  lhsBatch := [0]
  rhsBatch := [0]
  wf := dot_S14x8192x1536_S14x1536x128_S14x8192x128_2_1_1_2_0_0_wf
def dot_S8192x1792_S1792x128_S8192x128_1_0_0_1_n_n : DotDims S8192x1792 S1792x128 S8192x128 where
  lhsContracting := [1]
  rhsContracting := [0]
  lhsNonContracting := [0]
  rhsNonContracting := [1]
  lhsBatch := []
  rhsBatch := []
  wf := dot_S8192x1792_S1792x128_S8192x128_1_0_0_1_n_n_wf

class Facts : Prop extends Facts₀ where

variable [Facts]
-- ==== Proof.KernelPieces.lean ====
/-
  The fourteen arrays the kernel body lays side by side before its last contraction, each named as the body computes
  it from the staged blocks: edge type `e`'s slab of the gathered block (256 rows of 1536), its slab of the
  per-edge-type weights (1536 by 128) and its row of the per-edge-type biases, contracted, shifted and rectified.
  The body's one store is then the last contraction of their concatenation against the shared weights, shifted by the
  shared bias and rectified (`out_eq_pieces`).
-/
import proofs.«163783_j36077725287020_1_alg».proof.Proof.Gen.KernelIdeal.Frame
import Idealize.ShloMosaic.Lib.Pipeline.Value

noncomputable section

namespace Cert.KernelIdeal.Block

open Cert.KernelIdeal Cert.KernelIdeal.Gen Idealize.ShloMosaic Idealize.ShloMosaic.TcCoe

variable {F : FTy → Type} [FloatOps F]

/-- Edge type `e`'s rectified hidden block, `e = 0 … 13`, from the staged blocks `x0` (gathered rows), `x1`
    (per-edge-type weights) and `x2` (per-edge-type biases). -/
def pieces (x0 : Vec F S14x256x1536 .bf16) (x1 : Vec F S14x1536x128 .bf16) (x2 : Vec F S14x128 .f32) :
    Fin 14 → FVec F S256x128 .f32 :=
  ![k0_pay3 (View.ld x0 r0_0) (View.ld x1 r0_1) (View.ld x2 r0_2),
    k0_pay4 (View.ld x0 r0_3) (View.ld x1 r0_4) (View.ld x2 r0_5),
    k0_pay6 (k0_pay5 (View.ld x0 r0_6)) (View.ld x1 r0_7) (View.ld x2 r0_8),
    k0_pay7 (View.ld x0 r0_9) (View.ld x1 r0_10) (View.ld x2 r0_11),
    k0_pay9 (k0_pay8 (View.ld x0 r0_12) (View.ld x1 r0_13)) (View.ld x2 r0_14),
    k0_pay10 (View.ld x0 r0_15) (View.ld x1 r0_16) (View.ld x2 r0_17),
    k0_pay13 (k0_pay11 (View.ld x0 r0_18) (View.ld x1 r0_19) (View.ld x2 r0_20)) (Scalar.ofBits .f32 0x3C23D70A#32)
      (k0_pay12 (View.ld x0 r0_18) (View.ld x1 r0_19) (View.ld x2 r0_20)),
    k0_pay14 (View.ld x0 r0_21) (View.ld x1 r0_22) (View.ld x2 r0_23),
    k0_pay15 (View.ld x0 r0_24) (View.ld x1 r0_25) (View.ld x2 r0_26),
    k0_pay17 (k0_pay16 (View.ld x0 r0_27)) (View.ld x1 r0_28) (View.ld x2 r0_29),
    k0_pay18 (View.ld x0 r0_30) (View.ld x1 r0_31) (View.ld x2 r0_32),
    k0_pay20 (k0_pay19 (View.ld x0 r0_33) (View.ld x1 r0_34)) (View.ld x2 r0_35),
    k0_pay21 (View.ld x0 r0_36) (View.ld x1 r0_37) (View.ld x2 r0_38),
    k0_pay1 (k0_pay22 (View.ld x0 r0_39) (View.ld x1 r0_40) (View.ld x2 r0_41)) (Scalar.ofBits .f32 0x3C23D70A#32)
      (Scalar.ofBits .f32 0x00000000#32)]

/-- The staging buffer the body leaves: the last layer over the fourteen pieces, the shared weights and the shared bias. -/
theorem out_eq_pieces (x0 : Vec F S14x256x1536 .bf16) (x1 : Vec F S14x1536x128 .bf16) (x2 : Vec F S14x128 .f32)
    (x3 : Vec F S1792x128 .bf16) (x4 : Vec F S128 .f32) :
    out0_5 x0 x1 x2 x3 x4
      = k0_pay2 (pieces x0 x1 x2 0) (pieces x0 x1 x2 1) (pieces x0 x1 x2 2) (pieces x0 x1 x2 3) (pieces x0 x1 x2 4)
          (pieces x0 x1 x2 5) (pieces x0 x1 x2 6) (pieces x0 x1 x2 7) (pieces x0 x1 x2 8) (pieces x0 x1 x2 9)
          (pieces x0 x1 x2 10) (pieces x0 x1 x2 11) (pieces x0 x1 x2 12) (pieces x0 x1 x2 13) x3 x4 := by
  have hz2 : (![0, 0] : Fin 2 → Nat) = fun _ => 0 := by
    funext a; match a with | ⟨0, _⟩ => rfl | ⟨1, _⟩ => rfl
  have hz1 : (![0] : Fin 1 → Nat) = fun _ => 0 := by
    funext a; match a with | ⟨0, _⟩ => rfl
  unfold out0_5
  rw [View.canon_unit_zero (S := S256x128) hz2, View.ld_unit_zero (S := S1792x128) hz2, View.ld_unit_zero (S := S128) hz1]
  rfl

end Cert.KernelIdeal.Block

end
-- ==== Proof.AggSpec.lean ====
/-
  The function both programs compute, index by index, over the extended reals.

  A batch row `b` owns, for each of the fourteen edge types `e`, a gathered feature row `g[e, b, ·]` of length 1536.
  Edge type `e` maps it through its own weight matrix and bias and a leaky rectifier to 128 hidden features; the fourteen
  groups of 128 are laid side by side into one row of length 1792 (column `j` is edge type `j / 128`, feature `j % 128`),
  which goes through the shared weight matrix, the shared bias and the rectifier once more.  Both sums are plain finite
  sums of products on the extended reals, in one fixed index set each, so that no law beyond reading each operation
  at an index is needed to identify a program's result with this function.

  The batch extent `B` is a parameter: the whole array has `B = 8192`, one block of 256 consecutive rows has
  `B = 256`, and a row's value depends on the gathered features through that row alone (`G_rowsOf`).
-/
import Idealize.ShloMosaic.PureOps.Ideal
import Idealize.ShloMosaic.PureOps.Ideal.Laws
import Idealize.ShloMosaic.Lib.ValueIdx

noncomputable section

namespace Cert.HetAgg

open Idealize.ShloMosaic Idealize.ShloMosaic.ValueIdx
open scoped BigOperators

/-- The leaky rectifier on one extended real: `x` where `x ≥ 0`, and otherwise `x` times the slope, the number the
    f32 word `0x3C23D70A` denotes (about one hundredth). -/
def lrelu (x : EReal) : EReal :=
  Scalar.select (Ideal.cmp .oge x (Ideal.ofBits .f32 0x00000000#32)) x (Ideal.ofBits .f32 0x3C23D70A#32 * x)

/-- Edge type `e`'s hidden feature `k` of batch row `b`: the gathered row against column `k` of that edge type's
    weights, plus the edge type's bias, rectified. -/
def hidden {B : Nat} (g : (⟨3, ![14, B, 1536]⟩ : Shape).Idx → EReal) (W1 : (⟨3, ![14, 1536, 128]⟩ : Shape).Idx → EReal)
    (b1 : (⟨2, ![14, 128]⟩ : Shape).Idx → EReal) (e : Fin 14) (b : Fin B) (k : Fin 128) : EReal :=
  lrelu ((∑ d : Fin 1536, g (ix3 e b d) * W1 (ix3 e d k)) + b1 (ix2 e k))

/-- The fourteen groups of hidden features of row `b` side by side: column `j` is edge type `j / 128`, feature `j % 128`. -/
def agg {B : Nat} (g : (⟨3, ![14, B, 1536]⟩ : Shape).Idx → EReal) (W1 : (⟨3, ![14, 1536, 128]⟩ : Shape).Idx → EReal)
    (b1 : (⟨2, ![14, 128]⟩ : Shape).Idx → EReal) (b : Fin B) (j : Fin 1792) : EReal :=
  hidden g W1 b1 ⟨j.val / 128, by have := j.isLt; omega⟩ b ⟨j.val % 128, Nat.mod_lt _ (by decide)⟩

/-- Output feature `k` of batch row `b`: the aggregated row against column `k` of the shared weights, plus the shared
    bias, rectified. -/
def outAt {B : Nat} (g : (⟨3, ![14, B, 1536]⟩ : Shape).Idx → EReal) (W1 : (⟨3, ![14, 1536, 128]⟩ : Shape).Idx → EReal)
    (b1 : (⟨2, ![14, 128]⟩ : Shape).Idx → EReal) (W2 : (⟨2, ![1792, 128]⟩ : Shape).Idx → EReal)
    (b2 : (⟨1, ![128]⟩ : Shape).Idx → EReal) (b : Fin B) (k : Fin 128) : EReal :=
  lrelu ((∑ j : Fin 1792, agg g W1 b1 b j * W2 (ix2 j k)) + b2 (ix1 k))

/-- The result array, `B` rows of 128 features. -/
def G {B : Nat} (g : (⟨3, ![14, B, 1536]⟩ : Shape).Idx → EReal) (W1 : (⟨3, ![14, 1536, 128]⟩ : Shape).Idx → EReal)
    (b1 : (⟨2, ![14, 128]⟩ : Shape).Idx → EReal) (W2 : (⟨2, ![1792, 128]⟩ : Shape).Idx → EReal)
    (b2 : (⟨1, ![128]⟩ : Shape).Idx → EReal) : (⟨2, ![B, 128]⟩ : Shape).Idx → EReal :=
  fun i => outAt g W1 b1 W2 b2 (i 0) (i 1)

theorem G_ix2 {B : Nat} (g : (⟨3, ![14, B, 1536]⟩ : Shape).Idx → EReal) (W1 : (⟨3, ![14, 1536, 128]⟩ : Shape).Idx → EReal)
    (b1 : (⟨2, ![14, 128]⟩ : Shape).Idx → EReal) (W2 : (⟨2, ![1792, 128]⟩ : Shape).Idx → EReal)
    (b2 : (⟨1, ![128]⟩ : Shape).Idx → EReal) (r : Fin B) (k : Fin 128) :
    G g W1 b1 W2 b2 (ix2 r k) = outAt g W1 b1 W2 b2 r k := rfl

/-- Rows `256 t … 256 t + 255` of the gathered features, as an array of 256 rows. -/
def rowsOf (g : (⟨3, ![14, 8192, 1536]⟩ : Shape).Idx → EReal) (t : Fin 32) : (⟨3, ![14, 256, 1536]⟩ : Shape).Idx → EReal :=
  fun i => g (ix3 (i 0) ⟨256 * t.val + (i 1).val, by have := t.isLt; have h : (i 1).val < 256 := (i 1).isLt; omega⟩ (i 2))

/-- A row's result reads the gathered features on that row only: block `t` of the result is the result of block `t`
    of the gathered rows. -/
theorem G_rowsOf (g : (⟨3, ![14, 8192, 1536]⟩ : Shape).Idx → EReal) (W1 : (⟨3, ![14, 1536, 128]⟩ : Shape).Idx → EReal)
    (b1 : (⟨2, ![14, 128]⟩ : Shape).Idx → EReal) (W2 : (⟨2, ![1792, 128]⟩ : Shape).Idx → EReal)
    (b2 : (⟨1, ![128]⟩ : Shape).Idx → EReal) (t : Fin 32) (r : Fin 256) (k : Fin 128) :
    G (rowsOf g t) W1 b1 W2 b2 (ix2 r k)
      = G g W1 b1 W2 b2 (ix2 ⟨256 * t.val + r.val, by have := t.isLt; have := r.isLt; omega⟩ k) := rfl

end Cert.HetAgg

end
-- ==== Proof.EdgePieces.lean ====
/-
  Each of the fourteen pieces the kernel body concatenates, read at row `r`, feature `k`, is the specification's hidden
  feature of its edge type over the staged blocks: the slab loads read the blocks at the edge type's leading
  coordinate, the contraction into the zero accumulator is the plain sum over the 1536 gathered features, the bias row
  is read at `k`, and the comparison, product and selection are the rectifier.
-/
import proofs.«163783_j36077725287020_1_alg».proof.Proof.KernelPieces
import proofs.«163783_j36077725287020_1_alg».proof.Proof.AggSpec
import Idealize.ShloMosaic.Lib.ValueLayout

noncomputable section

namespace Cert.KernelIdeal.Block

open Cert.KernelIdeal Cert.KernelIdeal.Gen Idealize.ShloMosaic Idealize.ShloMosaic.TcCoe Idealize.ShloMosaic.ValueIdx
open scoped BigOperators

/-! ## The contraction's operand indices

The dimension numbers contract axis 1 of the left operand with axis 0 of the right one; at output index `j` and
contraction index `q` the left operand is read at `(j 0, q)` and the right operand at `(q, j 1)`. -/

theorem lhs_axis0 (j : S256x128.Idx) (q : dot_S256x1536_S1536x128_S256x128_1_0_0_1_n_n.contr.Idx) :
    ((dot_S256x1536_S1536x128_S256x128_1_0_0_1_n_n.lhsIdx j q) 0).val = (j 0).val := rfl

theorem lhs_axis1 (j : S256x128.Idx) (q : dot_S256x1536_S1536x128_S256x128_1_0_0_1_n_n.contr.Idx) :
    ((dot_S256x1536_S1536x128_S256x128_1_0_0_1_n_n.lhsIdx j q) 1).val = (q ⟨0, by decide⟩).val :=
  dot_S256x1536_S1536x128_S256x128_1_0_0_1_n_n.lhsIdx_val_of_single rfl j q

theorem rhs_axis0 (j : S256x128.Idx) (q : dot_S256x1536_S1536x128_S256x128_1_0_0_1_n_n.contr.Idx) :
    ((dot_S256x1536_S1536x128_S256x128_1_0_0_1_n_n.rhsIdx j q) 0).val = (q ⟨0, by decide⟩).val :=
  dot_S256x1536_S1536x128_S256x128_1_0_0_1_n_n.rhsIdx_val_of_single rfl j q

theorem rhs_axis1 (j : S256x128.Idx) (q : dot_S256x1536_S1536x128_S256x128_1_0_0_1_n_n.contr.Idx) :
    ((dot_S256x1536_S1536x128_S256x128_1_0_0_1_n_n.rhsIdx j q) 1).val = (j 1).val := rfl

/-- The contraction into the zero accumulator, read at row `r`, feature `k`: the plain sum over the 1536 gathered
    features of the left operand at `(r, d)` times the right operand at `(d, k)`. -/
theorem contract_apply (a : FVec Ideal S256x1536 .bf16) (w : FVec Ideal S1536x128 .bf16) (r : Fin 256) (k : Fin 128) :
    matmul dot_S256x1536_S1536x128_S256x128_1_0_0_1_n_n none a w (constant (F := Ideal) S256x128 .f32 0x00000000#32) (ix2 r k)
      = ∑ d : Fin 1536, a (ix2 r d) * w (ix2 d k) := by
  simp only [matmul]
  refine (Ideal.matmul_constant_zero_apply dot_S256x1536_S1536x128_S256x128_1_0_0_1_n_n none a w (ix2 r k)).trans ?_
  rw [← Equiv.sum_comp (contrEquiv1 dot_S256x1536_S1536x128_S256x128_1_0_0_1_n_n 1536 rfl rfl).symm]
  refine Finset.sum_congr rfl fun d _ => ?_
  have hq := contrEquiv1_symm_val dot_S256x1536_S1536x128_S256x128_1_0_0_1_n_n 1536 rfl rfl d
  congr 2
  · funext ax
    match ax with
    | ⟨0, _⟩ => exact Fin.ext (lhs_axis0 _ _)
    | ⟨1, _⟩ => exact Fin.ext ((lhs_axis1 _ _).trans hq)
  · funext ax
    match ax with
    | ⟨0, _⟩ => exact Fin.ext ((rhs_axis0 _ _).trans hq)
    | ⟨1, _⟩ => exact Fin.ext (rhs_axis1 _ _)

/-! ## The bias row and the pre-activation -/

/-- The bias row, its unit axis dropped and put back, laid over the 256 rows, read at row `r`, feature `k`: the bias
    at `(0, k)`. -/
theorem bias_apply (b : Vec Ideal S1x128 .f32) (r : Fin 256) (k : Fin 128) :
    broadcastTo S256x128 (shapeCast S1x128 (shapeCast S128 b shapeCasts_S1x128_S128) shapeCasts_S128_S1x128)
        broadcasts_S1x128_S256x128 (ix2 r k) = b (ix2 0 k) := by
  rw [shapeCast_shapeCast]
  exact broadcastTo_1b_ab_apply b broadcasts_S1x128_S256x128 r k

/-- The pre-activation of one edge type's stanza at row `r`, feature `k`: the gathered row against column `k` of the
    weights, plus the bias at `k`. -/
theorem pre_apply (g : Vec Ideal S1x256x1536 .bf16) (w : Vec Ideal S1x1536x128 .bf16) (b : Vec Ideal S1x128 .f32)
    (r : Fin 256) (k : Fin 128) :
    k0_pay11 (F := Ideal) g w b (ix2 r k) = (∑ d : Fin 1536, g (ix3 0 r d) * w (ix3 0 d k)) + b (ix2 0 k) := by
  unfold k0_pay11
  show matmul dot_S256x1536_S1536x128_S256x128_1_0_0_1_n_n none
        (shapeCast S256x1536 g shapeCasts_S1x256x1536_S256x1536) (shapeCast S1536x128 w shapeCasts_S1x1536x128_S1536x128)
        (constant (F := Ideal) S256x128 .f32 0x00000000#32) (ix2 r k)
      + broadcastTo S256x128 (shapeCast S1x128 (shapeCast S128 b shapeCasts_S1x128_S128) shapeCasts_S128_S1x128)
          broadcasts_S1x128_S256x128 (ix2 r k) = _
  rw [contract_apply, bias_apply]
  refine congrArg (· + b (ix2 0 k)) (Finset.sum_congr rfl fun d _ => ?_)
  rw [shapeCast_1ab_ab_apply g shapeCasts_S1x256x1536_S256x1536 r d,
    shapeCast_1ab_ab_apply w shapeCasts_S1x1536x128_S1536x128 d k]

/-! ## Each stanza is the rectifier of the pre-activation

The body's fourteen stanzas are the same five operations cut into one, two or three definitions; each cut, at an
index, is the rectifier applied to the pre-activation there. -/

theorem stanza0 (g : Vec Ideal S1x256x1536 .bf16) (w : Vec Ideal S1x1536x128 .bf16) (b : Vec Ideal S1x128 .f32)
    (i : S256x128.Idx) : k0_pay3 (F := Ideal) g w b i = Cert.HetAgg.lrelu (k0_pay11 g w b i) := rfl
theorem stanza1 (g : Vec Ideal S1x256x1536 .bf16) (w : Vec Ideal S1x1536x128 .bf16) (b : Vec Ideal S1x128 .f32)
    (i : S256x128.Idx) : k0_pay4 (F := Ideal) g w b i = Cert.HetAgg.lrelu (k0_pay11 g w b i) := rfl
theorem stanza2 (g : Vec Ideal S1x256x1536 .bf16) (w : Vec Ideal S1x1536x128 .bf16) (b : Vec Ideal S1x128 .f32)
    (i : S256x128.Idx) : k0_pay6 (F := Ideal) (k0_pay5 g) w b i = Cert.HetAgg.lrelu (k0_pay11 g w b i) := rfl
theorem stanza3 (g : Vec Ideal S1x256x1536 .bf16) (w : Vec Ideal S1x1536x128 .bf16) (b : Vec Ideal S1x128 .f32)
    (i : S256x128.Idx) : k0_pay7 (F := Ideal) g w b i = Cert.HetAgg.lrelu (k0_pay11 g w b i) := rfl
theorem stanza4 (g : Vec Ideal S1x256x1536 .bf16) (w : Vec Ideal S1x1536x128 .bf16) (b : Vec Ideal S1x128 .f32)
    (i : S256x128.Idx) : k0_pay9 (F := Ideal) (k0_pay8 g w) b i = Cert.HetAgg.lrelu (k0_pay11 g w b i) := rfl
theorem stanza5 (g : Vec Ideal S1x256x1536 .bf16) (w : Vec Ideal S1x1536x128 .bf16) (b : Vec Ideal S1x128 .f32)
    (i : S256x128.Idx) : k0_pay10 (F := Ideal) g w b i = Cert.HetAgg.lrelu (k0_pay11 g w b i) := rfl
theorem stanza6 (g : Vec Ideal S1x256x1536 .bf16) (w : Vec Ideal S1x1536x128 .bf16) (b : Vec Ideal S1x128 .f32)
    (i : S256x128.Idx) :
    k0_pay13 (F := Ideal) (k0_pay11 g w b) (Scalar.ofBits .f32 0x3C23D70A#32) (k0_pay12 g w b) i
      = Cert.HetAgg.lrelu (k0_pay11 g w b i) := rfl
theorem stanza7 (g : Vec Ideal S1x256x1536 .bf16) (w : Vec Ideal S1x1536x128 .bf16) (b : Vec Ideal S1x128 .f32)
    (i : S256x128.Idx) : k0_pay14 (F := Ideal) g w b i = Cert.HetAgg.lrelu (k0_pay11 g w b i) := rfl
theorem stanza8 (g : Vec Ideal S1x256x1536 .bf16) (w : Vec Ideal S1x1536x128 .bf16) (b : Vec Ideal S1x128 .f32)
    (i : S256x128.Idx) : k0_pay15 (F := Ideal) g w b i = Cert.HetAgg.lrelu (k0_pay11 g w b i) := rfl
theorem stanza9 (g : Vec Ideal S1x256x1536 .bf16) (w : Vec Ideal S1x1536x128 .bf16) (b : Vec Ideal S1x128 .f32)
    (i : S256x128.Idx) : k0_pay17 (F := Ideal) (k0_pay16 g) w b i = Cert.HetAgg.lrelu (k0_pay11 g w b i) := rfl
theorem stanza10 (g : Vec Ideal S1x256x1536 .bf16) (w : Vec Ideal S1x1536x128 .bf16) (b : Vec Ideal S1x128 .f32)
    (i : S256x128.Idx) : k0_pay18 (F := Ideal) g w b i = Cert.HetAgg.lrelu (k0_pay11 g w b i) := rfl
theorem stanza11 (g : Vec Ideal S1x256x1536 .bf16) (w : Vec Ideal S1x1536x128 .bf16) (b : Vec Ideal S1x128 .f32)
    (i : S256x128.Idx) : k0_pay20 (F := Ideal) (k0_pay19 g w) b i = Cert.HetAgg.lrelu (k0_pay11 g w b i) := rfl
theorem stanza12 (g : Vec Ideal S1x256x1536 .bf16) (w : Vec Ideal S1x1536x128 .bf16) (b : Vec Ideal S1x128 .f32)
    (i : S256x128.Idx) : k0_pay21 (F := Ideal) g w b i = Cert.HetAgg.lrelu (k0_pay11 g w b i) := rfl
theorem stanza13 (g : Vec Ideal S1x256x1536 .bf16) (w : Vec Ideal S1x1536x128 .bf16) (b : Vec Ideal S1x128 .f32)
    (i : S256x128.Idx) :
    k0_pay1 (F := Ideal) (k0_pay22 g w b) (Scalar.ofBits .f32 0x3C23D70A#32) (Scalar.ofBits .f32 0x00000000#32) i
      = Cert.HetAgg.lrelu (k0_pay11 g w b i) := rfl

/-! ## The slab loads

Edge type `n`'s slab of a staged block is the unit-stride rectangle at leading offset `n`, one deep: its element
`(0, p, q)` is the block's element `(n, p, q)`. -/

theorem ld_rows (x0 : Vec Ideal S14x256x1536 .bf16) (n : Nat) (hn : n < 14)
    (h : ∀ a, (![n, 0, 0] : Fin 3 → Nat) a + S1x256x1536.size a ≤ S14x256x1536.size a) (r : Fin 256) (d : Fin 1536) :
    View.ld x0 (Rect.unit (s := S14x256x1536) ![n, 0, 0] S1x256x1536.size h) (ix3 0 r d) = x0 (ix3 ⟨n, hn⟩ r d) := by
  show x0 _ = x0 _
  congr 1
  funext a
  match a with
  | ⟨0, _⟩ => exact Fin.ext (show n + 1 * 0 = n by omega)
  | ⟨1, _⟩ => exact Fin.ext (show 0 + 1 * r.val = r.val by omega)
  | ⟨2, _⟩ => exact Fin.ext (show 0 + 1 * d.val = d.val by omega)

theorem ld_weights (x1 : Vec Ideal S14x1536x128 .bf16) (n : Nat) (hn : n < 14)
    (h : ∀ a, (![n, 0, 0] : Fin 3 → Nat) a + S1x1536x128.size a ≤ S14x1536x128.size a) (d : Fin 1536) (k : Fin 128) :
    View.ld x1 (Rect.unit (s := S14x1536x128) ![n, 0, 0] S1x1536x128.size h) (ix3 0 d k) = x1 (ix3 ⟨n, hn⟩ d k) := by
  show x1 _ = x1 _
  congr 1
  funext a
  match a with
  | ⟨0, _⟩ => exact Fin.ext (show n + 1 * 0 = n by omega)
  | ⟨1, _⟩ => exact Fin.ext (show 0 + 1 * d.val = d.val by omega)
  | ⟨2, _⟩ => exact Fin.ext (show 0 + 1 * k.val = k.val by omega)

theorem ld_bias (x2 : Vec Ideal S14x128 .f32) (n : Nat) (hn : n < 14)
    (h : ∀ a, (![n, 0] : Fin 2 → Nat) a + S1x128.size a ≤ S14x128.size a) (k : Fin 128) :
    View.ld x2 (Rect.unit (s := S14x128) ![n, 0] S1x128.size h) (ix2 0 k) = x2 (ix2 ⟨n, hn⟩ k) := by
  show x2 _ = x2 _
  congr 1
  funext a
  match a with
  | ⟨0, _⟩ => exact Fin.ext (show n + 1 * 0 = n by omega)
  | ⟨1, _⟩ => exact Fin.ext (show 0 + 1 * k.val = k.val by omega)

/-- The rectified pre-activation over edge type `n`'s three slabs, at row `r`, feature `k`, is the specification's
    hidden feature of edge type `n`. -/
theorem slab_hidden (x0 : Vec Ideal S14x256x1536 .bf16) (x1 : Vec Ideal S14x1536x128 .bf16) (x2 : Vec Ideal S14x128 .f32)
    (n : Nat) (hn : n < 14)
    (h0 : ∀ a, (![n, 0, 0] : Fin 3 → Nat) a + S1x256x1536.size a ≤ S14x256x1536.size a)
    (h1 : ∀ a, (![n, 0, 0] : Fin 3 → Nat) a + S1x1536x128.size a ≤ S14x1536x128.size a)
    (h2 : ∀ a, (![n, 0] : Fin 2 → Nat) a + S1x128.size a ≤ S14x128.size a) (r : Fin 256) (k : Fin 128) :
    Cert.HetAgg.lrelu (k0_pay11 (F := Ideal)
        (View.ld x0 (Rect.unit (s := S14x256x1536) ![n, 0, 0] S1x256x1536.size h0))
        (View.ld x1 (Rect.unit (s := S14x1536x128) ![n, 0, 0] S1x1536x128.size h1))
        (View.ld x2 (Rect.unit (s := S14x128) ![n, 0] S1x128.size h2)) (ix2 r k))
      = Cert.HetAgg.hidden x0 x1 x2 ⟨n, hn⟩ r k := by
  rw [pre_apply, ld_bias x2 n hn h2 k]
  unfold Cert.HetAgg.hidden
  refine congrArg (fun s => Cert.HetAgg.lrelu (s + x2 (ix2 ⟨n, hn⟩ k))) (Finset.sum_congr rfl fun d _ => ?_)
  rw [ld_rows x0 n hn h0 r d, ld_weights x1 n hn h1 d k]

theorem pieces_apply (x0 : Vec Ideal S14x256x1536 .bf16) (x1 : Vec Ideal S14x1536x128 .bf16) (x2 : Vec Ideal S14x128 .f32)
    (e : Fin 14) (r : Fin 256) (k : Fin 128) :
    pieces (F := Ideal) x0 x1 x2 e (ix2 r k) = Cert.HetAgg.hidden x0 x1 x2 e r k := by
  match e with
  | ⟨0, h⟩ => exact (stanza0 _ _ _ _).trans (slab_hidden x0 x1 x2 0 h _ _ _ r k)
  | ⟨1, h⟩ => exact (stanza1 _ _ _ _).trans (slab_hidden x0 x1 x2 1 h _ _ _ r k)
  | ⟨2, h⟩ => exact (stanza2 _ _ _ _).trans (slab_hidden x0 x1 x2 2 h _ _ _ r k)
  | ⟨3, h⟩ => exact (stanza3 _ _ _ _).trans (slab_hidden x0 x1 x2 3 h _ _ _ r k)
  | ⟨4, h⟩ => exact (stanza4 _ _ _ _).trans (slab_hidden x0 x1 x2 4 h _ _ _ r k)
  | ⟨5, h⟩ => exact (stanza5 _ _ _ _).trans (slab_hidden x0 x1 x2 5 h _ _ _ r k)
  | ⟨6, h⟩ => exact (stanza6 _ _ _ _).trans (slab_hidden x0 x1 x2 6 h _ _ _ r k)
  | ⟨7, h⟩ => exact (stanza7 _ _ _ _).trans (slab_hidden x0 x1 x2 7 h _ _ _ r k)
  | ⟨8, h⟩ => exact (stanza8 _ _ _ _).trans (slab_hidden x0 x1 x2 8 h _ _ _ r k)
  | ⟨9, h⟩ => exact (stanza9 _ _ _ _).trans (slab_hidden x0 x1 x2 9 h _ _ _ r k)
  | ⟨10, h⟩ => exact (stanza10 _ _ _ _).trans (slab_hidden x0 x1 x2 10 h _ _ _ r k)
  | ⟨11, h⟩ => exact (stanza11 _ _ _ _).trans (slab_hidden x0 x1 x2 11 h _ _ _ r k)
  | ⟨12, h⟩ => exact (stanza12 _ _ _ _).trans (slab_hidden x0 x1 x2 12 h _ _ _ r k)
  | ⟨13, h⟩ => exact (stanza13 _ _ _ _).trans (slab_hidden x0 x1 x2 13 h _ _ _ r k)

end Cert.KernelIdeal.Block

end
-- ==== Proof.LastLayer.lean ====
/-
  The kernel body's last layer read at row `r`, feature `k`: whatever the fourteen arrays `vs` are, their concatenation
  along the feature axis holds at column `j` array `j / 128` at feature `j % 128`; the contraction into the zero
  accumulator is the plain sum over the 1792 columns against the shared weights; the shared bias is read at `k`;
  and the comparison, product and selection are the rectifier.
-/
import proofs.«163783_j36077725287020_1_alg».proof.Proof.Gen.KernelIdeal.Skeleton
import proofs.«163783_j36077725287020_1_alg».proof.Proof.AggSpec
import Idealize.ShloMosaic.Lib.Pipeline.Value
import Idealize.ShloMosaic.Lib.ValueLayout

noncomputable section

namespace Cert.KernelIdeal.Block

open Cert.KernelIdeal Cert.KernelIdeal.Gen Idealize.ShloMosaic Idealize.ShloMosaic.TcCoe Idealize.ShloMosaic.ValueIdx
open scoped BigOperators

/-- The fourteen arrays side by side along the feature axis, read at row `r`, column `j`: array `j / 128` at
    feature `j % 128` (every array spans 128 columns; the row coordinate is kept). -/
theorem concat14_apply (vs : Fin 14 → FVec Ideal S256x128 .f32)
    (h : Shape.Concatenates [S256x128, S256x128, S256x128, S256x128, S256x128, S256x128, S256x128, S256x128, S256x128,
      S256x128, S256x128, S256x128, S256x128, S256x128] S256x1792 1) (r : Fin 256) (j : Fin 1792) :
    concatenate S256x1792 1 [⟨S256x128, vs 0⟩, ⟨S256x128, vs 1⟩, ⟨S256x128, vs 2⟩, ⟨S256x128, vs 3⟩, ⟨S256x128, vs 4⟩,
        ⟨S256x128, vs 5⟩, ⟨S256x128, vs 6⟩, ⟨S256x128, vs 7⟩, ⟨S256x128, vs 8⟩, ⟨S256x128, vs 9⟩, ⟨S256x128, vs 10⟩,
        ⟨S256x128, vs 11⟩, ⟨S256x128, vs 12⟩, ⟨S256x128, vs 13⟩] h (ix2 r j)
      = vs ⟨j.val / 128, by have := j.isLt; omega⟩ (ix2 r ⟨j.val % 128, Nat.mod_lt _ (by decide)⟩) := by
  refine concatenate_ofFn_apply (t := S256x1792) (s₁ := S256x128) 1 vs h rfl 128 rfl (ix2 r j)
    ⟨j.val / 128, by have := j.isLt; omega⟩ rfl (ix2 r ⟨j.val % 128, Nat.mod_lt _ (by decide)⟩) rfl ?_
  intro b hb
  match b with
  | ⟨0, _⟩ => rfl
  | ⟨1, _⟩ => exact absurd rfl hb

/-- The left operand's row coordinate at output `j` is the output's row. -/
theorem lhs_dot_0 (j : S256x128.Idx) (q : (dot_S256x1792_S1792x128_S256x128_1_0_0_1_n_n).contr.Idx) :
    ((dot_S256x1792_S1792x128_S256x128_1_0_0_1_n_n).lhsIdx j q 0).val = (j 0).val := rfl

/-- The left operand's column coordinate is the contraction coordinate. -/
theorem lhs_dot_1 (j : S256x128.Idx) (q : (dot_S256x1792_S1792x128_S256x128_1_0_0_1_n_n).contr.Idx) :
    ((dot_S256x1792_S1792x128_S256x128_1_0_0_1_n_n).lhsIdx j q 1).val = (q ⟨0, by decide⟩).val :=
  (dot_S256x1792_S1792x128_S256x128_1_0_0_1_n_n).lhsIdx_val_of_single (cl := 1) rfl j q

/-- The right operand's row coordinate is the contraction coordinate. -/
theorem rhs_dot_0 (j : S256x128.Idx) (q : (dot_S256x1792_S1792x128_S256x128_1_0_0_1_n_n).contr.Idx) :
    ((dot_S256x1792_S1792x128_S256x128_1_0_0_1_n_n).rhsIdx j q 0).val = (q ⟨0, by decide⟩).val :=
  (dot_S256x1792_S1792x128_S256x128_1_0_0_1_n_n).rhsIdx_val_of_single (cr := 0) rfl j q

/-- The right operand's column coordinate at output `j` is the output's column. -/
theorem rhs_dot_1 (j : S256x128.Idx) (q : (dot_S256x1792_S1792x128_S256x128_1_0_0_1_n_n).contr.Idx) :
    ((dot_S256x1792_S1792x128_S256x128_1_0_0_1_n_n).rhsIdx j q 1).val = (j 1).val := rfl

/-- The contraction into the zero accumulator at `(r, k)`: the sum over the 1792 columns of the left operand's row `r`
    against the right operand's column `k`. -/
theorem matmul_zero_apply (l : FVec Ideal S256x1792 .bf16) (w : FVec Ideal S1792x128 .bf16) (r : Fin 256) (k : Fin 128) :
    matmul dot_S256x1792_S1792x128_S256x128_1_0_0_1_n_n none l w (constant (F := Ideal) S256x128 .f32 0x00000000#32) (ix2 r k)
      = ∑ j : Fin 1792, l (ix2 r j) * w (ix2 j k) := by
  simp only [matmul]
  rw [Ideal.matmul_constant_zero_apply,
    ← Equiv.sum_comp (contrEquiv1 dot_S256x1792_S1792x128_S256x128_1_0_0_1_n_n 1792 rfl rfl).symm]
  refine Finset.sum_congr rfl fun j _ => ?_
  have hl : (dot_S256x1792_S1792x128_S256x128_1_0_0_1_n_n).lhsIdx (ix2 r k)
      ((contrEquiv1 dot_S256x1792_S1792x128_S256x128_1_0_0_1_n_n 1792 rfl rfl).symm j) = ix2 r j := by
    funext a
    apply Fin.ext
    match a with
    | ⟨0, _⟩ => exact lhs_dot_0 _ _
    | ⟨1, _⟩ => exact (lhs_dot_1 _ _).trans (contrEquiv1_symm_val _ 1792 rfl rfl j)
  have hr : (dot_S256x1792_S1792x128_S256x128_1_0_0_1_n_n).rhsIdx (ix2 r k)
      ((contrEquiv1 dot_S256x1792_S1792x128_S256x128_1_0_0_1_n_n 1792 rfl rfl).symm j) = ix2 j k := by
    funext a
    apply Fin.ext
    match a with
    | ⟨0, _⟩ => exact (rhs_dot_0 _ _).trans (contrEquiv1_symm_val _ 1792 rfl rfl j)
    | ⟨1, _⟩ => exact rhs_dot_1 _ _
  rw [hl, hr]

/-- The shared bias, laid as one row and repeated down the 256 rows, reads at `(r, k)` its entry `k`. -/
theorem sharedBias_apply (bb : FVec Ideal S128 .f32) (h₁ : S128.ShapeCasts S1x128) (h₂ : S1x128.Broadcasts S256x128)
    (r : Fin 256) (k : Fin 128) :
    broadcastTo S256x128 (shapeCast S1x128 bb h₁) h₂ (ix2 r k) = bb (ix1 k) := by
  rw [broadcastTo_1b_ab_apply, shapeCast_a_1a_apply]

theorem lastLayer_apply (vs : Fin 14 → FVec Ideal S256x128 .f32) (w : Vec Ideal S1792x128 .bf16) (bb : Vec Ideal S128 .f32)
    (r : Fin 256) (k : Fin 128) :
    k0_pay2 (F := Ideal) (vs 0) (vs 1) (vs 2) (vs 3) (vs 4) (vs 5) (vs 6) (vs 7) (vs 8) (vs 9) (vs 10) (vs 11) (vs 12) (vs 13) w bb (ix2 r k)
      = Cert.HetAgg.lrelu ((∑ j : Fin 1792,
            vs ⟨j.val / 128, by have := j.isLt; omega⟩ (ix2 r ⟨j.val % 128, Nat.mod_lt _ (by decide)⟩) * w (ix2 j k))
          + bb (ix1 k)) := by
  -- the comparison, the product by the slope and the selection, read at the index, are the rectifier of the sum
  have key : k0_pay2 (F := Ideal) (vs 0) (vs 1) (vs 2) (vs 3) (vs 4) (vs 5) (vs 6) (vs 7) (vs 8) (vs 9) (vs 10) (vs 11)
        (vs 12) (vs 13) w bb (ix2 r k)
      = Cert.HetAgg.lrelu (
          matmul dot_S256x1792_S1792x128_S256x128_1_0_0_1_n_n none
            (truncf .bf16 (concatenate S256x1792 1
                [⟨S256x128, vs 0⟩, ⟨S256x128, vs 1⟩, ⟨S256x128, vs 2⟩, ⟨S256x128, vs 3⟩, ⟨S256x128, vs 4⟩, ⟨S256x128, vs 5⟩,
                  ⟨S256x128, vs 6⟩, ⟨S256x128, vs 7⟩, ⟨S256x128, vs 8⟩, ⟨S256x128, vs 9⟩, ⟨S256x128, vs 10⟩, ⟨S256x128, vs 11⟩,
                  ⟨S256x128, vs 12⟩, ⟨S256x128, vs 13⟩]
                concatenates_S256x128_S256x128_S256x128_S256x128_S256x128_S256x128_S256x128_S256x128_S256x128_S256x128_S256x128_S256x128_S256x128_S256x128_S256x1792_d1) bitsLt_bf16_f32)
            (shapeCast S1792x128 w shapeCasts_S1792x128_S1792x128) (constant (F := Ideal) S256x128 .f32 0x00000000#32) (ix2 r k)
          + broadcastTo S256x128 (shapeCast S1x128 bb shapeCasts_S128_S1x128) broadcasts_S1x128_S256x128 (ix2 r k)) := rfl
  rw [key, shapeCast_self, matmul_zero_apply, sharedBias_apply]
  refine congrArg (fun x => Cert.HetAgg.lrelu (x + bb (ix1 k))) (Finset.sum_congr rfl fun j _ => ?_)
  rw [truncf_apply, concat14_apply]

end Cert.KernelIdeal.Block

end
-- ==== Proof.KernelBlock.lean ====
/-
  What the kernel body leaves in the output's staging buffer, as a function of the staged blocks: the specification at
  256 rows.  The last layer reads column `j` of the concatenation as piece `j / 128` at feature `j % 128`, and each
  piece at a row and feature is the hidden feature of its edge type, so the row's sum over the 1792 columns is the
  specification's sum over the aggregated row.
-/
import proofs.«163783_j36077725287020_1_alg».proof.Proof.KernelPieces
import proofs.«163783_j36077725287020_1_alg».proof.Proof.EdgePieces
import proofs.«163783_j36077725287020_1_alg».proof.Proof.LastLayer
import proofs.«163783_j36077725287020_1_alg».proof.Proof.AggSpec

noncomputable section

namespace Cert.KernelIdeal.Block

open Cert.KernelIdeal Cert.KernelIdeal.Gen Idealize.ShloMosaic Idealize.ShloMosaic.TcCoe Idealize.ShloMosaic.ValueIdx
open scoped BigOperators

/-- The body's result over any staged blocks is the specification of those blocks, row by row and feature by feature. -/
theorem out_eq (x0 : Vec Ideal S14x256x1536 .bf16) (x1 : Vec Ideal S14x1536x128 .bf16) (x2 : Vec Ideal S14x128 .f32)
    (x3 : Vec Ideal S1792x128 .bf16) (x4 : Vec Ideal S128 .f32) :
    out0_5 (F := Ideal) x0 x1 x2 x3 x4 = Cert.HetAgg.G (B := 256) x0 x1 x2 x3 x4 := by
  funext i
  obtain ⟨r, k, rfl⟩ : ∃ (r : Fin 256) (k : Fin 128), i = ix2 r k := ⟨i 0, i 1, eq_ix2 i⟩
  rw [out_eq_pieces, lastLayer_apply (pieces x0 x1 x2) x3 x4 r k, Cert.HetAgg.G_ix2]
  unfold Cert.HetAgg.outAt Cert.HetAgg.agg
  refine congrArg (fun s => Cert.HetAgg.lrelu (s + x4 (ix1 k))) (Finset.sum_congr rfl fun j _ => ?_)
  rw [pieces_apply]

end Cert.KernelIdeal.Block

end
-- ==== Proof.KernelValue.lean ====
/-
  The kernel's result array as one function of its arguments.  The region finds five arrays: the gathered rows (the row
  gather of the feature tables, through a change of float format that is the identity on the extended reals), the two
  weight arrays (through the same change of format), and the two bias arrays as launched.  Grid point `t` stages rows
  `256 t … 256 t + 255` of the gathered rows and the other four arrays whole, and writes back rows
  `256 t … 256 t + 255` of the result; the body's result over those blocks is the specification at 256 rows, which is
  rows `256 t … 256 t + 255` of the specification at 8192 rows because a row's result reads the gathered rows on that
  row only.  The 32 blocks tile the 8192 rows (row `b` lies in block `b / 256`), so the array ends at the
  specification of the five arrays.
-/
import proofs.«163783_j36077725287020_1_alg».proof.Proof.Gen.KernelIdeal.Value
import proofs.«163783_j36077725287020_1_alg».proof.Proof.KernelBlock
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-- The gathered rows: row number `i` of every edge type's feature table, `i` read off the index vector with a
    negative entry moved up by the table's 10000 rows first. -/
def gathered {F : FTy → Type} [FloatOps F] (x : FVec F S14x10000x1536 .f32) (idx : IVec S8192 32) : FVec F S14x8192x1536 .f32 :=
  Host.gather gather_S14x10000x1536_S8192x1_S14x8192x1536_02_1_n_n_1_1_1411536 x
    (broadcastInDim S8192x1 ![0] bcast_S8192_S8192x1_0
      (select (cmpi .slt idx (broadcastInDim S8192 ![] bcast_S_S8192 (constantI S_ 32 0#32)))
        (addi idx (broadcastInDim S8192 ![] bcast_S_S8192 (constantI S_ 32 10000#32))) idx))

variable (m : (ℓ : Loc nD τ sig) → Buf (Elt Ideal) ℓ) (ρ : Dev nD → PrngReg)

/-! ## The five arrays the region finds -/

abbrev garr (c : Dev nD) : FVec Ideal S14x8192x1536 .bf16 := V m c main_v7
abbrev w1arr (c : Dev nD) : FVec Ideal S14x1536x128 .bf16 := V m c main_v8
abbrev b1arr (c : Dev nD) : FVec Ideal S14x128 .f32 := V m c main_arg2
abbrev w2arr (c : Dev nD) : FVec Ideal S1792x128 .bf16 := V m c main_v9
abbrev b2arr (c : Dev nD) : FVec Ideal S128 .f32 := V m c main_arg4

/-- The gathered rows are the row gather of the launched feature tables at the launched index vector. -/
theorem garr_eq (c : Dev nD) : garr m c = gathered (F := Ideal) (m ((c : Thread nD τ).loc main_arg0)) (m ((c : Thread nD τ).loc main_arg5)) := by
  show (V m c main_v7 : S14x8192x1536.Idx → Elt Ideal .bf16) = _
  dsimp only [Gen.V, Gen.hostOps0]
  after_results
  rfl

theorem w1arr_eq (c : Dev nD) : w1arr m c = (m ((c : Thread nD τ).loc main_arg1)) := by
  show (V m c main_v8 : S14x1536x128.Idx → Elt Ideal .bf16) = _
  dsimp only [Gen.V, Gen.hostOps0]
  after_results
  rfl

theorem w2arr_eq (c : Dev nD) : w2arr m c = (m ((c : Thread nD τ).loc main_arg3)) := by
  show (V m c main_v9 : S1792x128.Idx → Elt Ideal .bf16) = _
  dsimp only [Gen.V, Gen.hostOps0]
  after_results
  rfl

theorem b1arr_eq (c : Dev nD) : b1arr m c = (m ((c : Thread nD τ).loc main_arg2)) := V_main_arg2 m c
theorem b2arr_eq (c : Dev nD) : b2arr m c = (m ((c : Thread nD τ).loc main_arg4)) := V_main_arg4 m c

/-! ## The blocks a grid point stages -/

/-- The printed index maps over the 32 grid points: the gathered rows and the result move with the point along the
    batch axis, every other block index is zero. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

abbrev gblk (c : Dev nD) (t : Fin cfg0.N) : Vec Ideal S14x256x1536 .bf16 := iblk m c 0 t
abbrev w1blk (c : Dev nD) (t : Fin cfg0.N) : Vec Ideal S14x1536x128 .bf16 := iblk m c 1 t
abbrev b1blk (c : Dev nD) (t : Fin cfg0.N) : Vec Ideal S14x128 .f32 := iblk m c 2 t
abbrev w2blk (c : Dev nD) (t : Fin cfg0.N) : Vec Ideal S1792x128 .bf16 := iblk m c 3 t
abbrev b2blk (c : Dev nD) (t : Fin cfg0.N) : Vec Ideal S128 .f32 := iblk m c 4 t

/-- Point `t`'s block of the gathered rows is their rows `256 t … 256 t + 255`. -/
theorem gblk_eq (c : Dev nD) (t : Fin cfg0.N) : gblk m c t = Cert.HetAgg.rowsOf (garr m c) (t.cast N_0) := by
  funext y
  obtain ⟨e0, e1, e2, -⟩ := idx_facts t
  have h0 : (y 0).val < 14 := (y 0).isLt
  have h1 : (y 1).val < 256 := (y 1).isLt
  have h2 : (y 2).val < 1536 := (y 2).isLt
  have ht : t.val < 32 := (t.cast N_0).isLt
  show V m c main_v7 (((cfg0.win 0).blk t).view.emb y)
    = V m c main_v7 (ix3 (y 0) ⟨256 * t.val + (y 1).val, by omega⟩ (y 2))
  refine congrArg (V m c main_v7) (funext fun a => Fin.ext ?_)
  match a with
  | ⟨0, _⟩ => show win0_0.index t (0 : Fin 3) * 14 + 1 * (y 0).val = (y 0).val; omega
  | ⟨1, _⟩ => show win0_0.index t (1 : Fin 3) * 256 + 1 * (y 1).val = 256 * t.val + (y 1).val; omega
  | ⟨2, _⟩ => show win0_0.index t (2 : Fin 3) * 1536 + 1 * (y 2).val = (y 2).val; omega

/-- Every point stages the per-edge-type weights whole. -/
theorem w1blk_eq (c : Dev nD) (t : Fin cfg0.N) : w1blk m c t = w1arr m c := by
  funext y
  obtain ⟨-, -, -, e0, e1, e2, -⟩ := idx_facts t
  show V m c main_v8 (((cfg0.win 1).blk t).view.emb y) = V m c main_v8 y
  refine congrArg (V m c main_v8) (funext fun a => Fin.ext ?_)
  match a with
  | ⟨0, _⟩ => show win0_1.index t (0 : Fin 3) * 14 + 1 * (y 0).val = (y 0).val; omega
  | ⟨1, _⟩ => show win0_1.index t (1 : Fin 3) * 1536 + 1 * (y 1).val = (y 1).val; omega
  | ⟨2, _⟩ => show win0_1.index t (2 : Fin 3) * 128 + 1 * (y 2).val = (y 2).val; omega

/-- Every point stages the per-edge-type biases whole. -/
theorem b1blk_eq (c : Dev nD) (t : Fin cfg0.N) : b1blk m c t = b1arr m c := by
  funext y
  obtain ⟨-, -, -, -, -, -, e0, e1, -⟩ := idx_facts t
  show V m c main_arg2 (((cfg0.win 2).blk t).view.emb y) = V m c main_arg2 y
  refine congrArg (V m c main_arg2) (funext fun a => Fin.ext ?_)
  match a with
  | ⟨0, _⟩ => show win0_2.index t (0 : Fin 2) * 14 + 1 * (y 0).val = (y 0).val; omega
  | ⟨1, _⟩ => show win0_2.index t (1 : Fin 2) * 128 + 1 * (y 1).val = (y 1).val; omega

/-- Every point stages the shared weights whole. -/
theorem w2blk_eq (c : Dev nD) (t : Fin cfg0.N) : w2blk m c t = w2arr m c := by
  funext y
  obtain ⟨-, -, -, -, -, -, -, -, e0, e1, -⟩ := idx_facts t
  show V m c main_v9 (((cfg0.win 3).blk t).view.emb y) = V m c main_v9 y
  refine congrArg (V m c main_v9) (funext fun a => Fin.ext ?_)
  match a with
  | ⟨0, _⟩ => show win0_3.index t (0 : Fin 2) * 1792 + 1 * (y 0).val = (y 0).val; omega
  | ⟨1, _⟩ => show win0_3.index t (1 : Fin 2) * 128 + 1 * (y 1).val = (y 1).val; omega

/-- Every point stages the shared bias whole. -/
theorem b2blk_eq (c : Dev nD) (t : Fin cfg0.N) : b2blk m c t = b2arr m c := by
  funext y
  obtain ⟨-, -, -, -, -, -, -, -, -, -, e0, -⟩ := idx_facts t
  show V m c main_arg4 (((cfg0.win 4).blk t).view.emb y) = V m c main_arg4 y
  refine congrArg (V m c main_arg4) (funext fun a => Fin.ext ?_)
  match a with
  | ⟨0, _⟩ => show win0_4.index t (0 : Fin 1) * 128 + 1 * (y 0).val = (y 0).val; omega

/-! ## What a point writes back, the cover, the array -/

/-- The body's result at point `t`, at local row `r` and feature `k`, is the specification of the five arrays at row
    `256 t + r`. -/
theorem point_eq (c : Dev nD) (t : Fin cfg0.N) (j : S256x128.Idx) :
    out0_5 (gblk m c t) (w1blk m c t) (b1blk m c t) (w2blk m c t) (b2blk m c t) j
      = Cert.HetAgg.G (garr m c) (w1arr m c) (b1arr m c) (w2arr m c) (b2arr m c) (((cfg0.win 5).blk t).view.emb j) := by
  obtain ⟨r, k, rfl⟩ : ∃ (r : Fin 256) (k : Fin 128), j = ix2 r k := ⟨j 0, j 1, eq_ix2 j⟩
  obtain ⟨-, -, -, -, -, -, -, -, -, -, -, e0, e1⟩ := idx_facts t
  rw [Block.out_eq (gblk m c t) (w1blk m c t) (b1blk m c t) (w2blk m c t) (b2blk m c t), gblk_eq, w1blk_eq, b1blk_eq,
    w2blk_eq, b2blk_eq, Cert.HetAgg.G_rowsOf]
  refine congrArg (Cert.HetAgg.G (garr m c) (w1arr m c) (b1arr m c) (w2arr m c) (b2arr m c)) (funext fun a => Fin.ext ?_)
  match a with
  | ⟨0, _⟩ => show 256 * t.val + r.val = win0_5.index t (0 : Fin 2) * 256 + 1 * r.val; omega
  | ⟨1, _⟩ => show k.val = win0_5.index t (1 : Fin 2) * 128 + 1 * k.val; omega

/-- The result's blocks lie whole inside the array, so what a point writes back of a staged block is the block. -/
theorem cut_apply (t : Fin cfg0.N) (X : S256x128.Idx → EReal) (j : ((cfg0.win 5).xblock (grid0.coords t)).Idx) :
    (cfg0.win 5).cut (grid0.coords t) X j = X j := rfl

/-- An array read through point `t`'s block, at a local index, is the array at the block's image of that index. -/
theorem read_apply (t : Fin cfg0.N) (A : S8192x128.Idx → EReal) (j : ((cfg0.win 5).xblock (grid0.coords t)).Idx) :
    View.read (Elt Ideal) ((cfg0.win 5).blk t).view A j = A (((cfg0.win 5).blk t).view.emb j) := rfl

/-- What point `t` writes back is block `t` of the specification of the five arrays. -/
theorem flushed_eq (c : Dev nD) (t : Fin cfg0.N) :
    (dats m 0 c).flushed 5 t = ((cfg0.win 5).blk t).view.read (Elt Ideal)
        (Cert.HetAgg.G (garr m c) (w1arr m c) (b1arr m c) (w2arr m c) (b2arr m c)) := by
  rw [Value.flushed5]
  funext j
  exact (cut_apply t _ j).trans ((point_eq m c t j).trans (read_apply t _ j).symm)

/-- An index of the result array is in point `t`'s block iff each coordinate is in the block's range on its axis. -/
theorem mem_blk (t : Fin cfg0.N) (i : S8192x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v10).slice (win0_5.rect t)).set ↔ _
  rw [View.set_slice_whole, Rect.mem_set_unit]
  exact Iff.rfl

/-- Row `b` of the result lies in the block of point `b / 256`. -/
theorem cover (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hN : grid0.N = 32 := N_0
  have hlt : (i 0).val / 256 < cfg0.N := by show (i 0).val / 256 < grid0.N; omega
  refine ⟨⟨(i 0).val / 256, hlt⟩, flush0_5 _, ?_⟩
  rw [mem_blk]
  obtain ⟨-, -, -, -, -, -, -, -, -, -, -, e0, e1⟩ := idx_facts ⟨(i 0).val / 256, hlt⟩
  have e0' : win0_5.index ⟨(i 0).val / 256, hlt⟩ (0 : Fin 2) = (i 0).val / 256 := e0
  intro a
  match a with
  | ⟨0, _⟩ =>
    show win0_5.index ⟨(i 0).val / 256, _⟩ (0 : Fin 2) * 256 ≤ (i 0).val ∧ (i 0).val < win0_5.index ⟨(i 0).val / 256, _⟩ (0 : Fin 2) * 256 + 256
    rw [e0']; omega
  | ⟨1, _⟩ =>
    show win0_5.index ⟨(i 0).val / 256, _⟩ (1 : Fin 2) * 128 ≤ (i 1).val ∧ (i 1).val < win0_5.index ⟨(i 0).val / 256, _⟩ (1 : Fin 2) * 128 + 128
    rw [e1]; omega

/-- The result array after the run is the specification of the five arrays. -/
theorem final (c : Dev nD) :
    (dats m 0 c).arrAt 5 cfg0.N = Cert.HetAgg.G (garr m c) (w1arr m c) (b1arr m c) (w2arr m c) (b2arr m c) :=
  (dats m 0 c).arrAt_eq_of_cover 5 _ (fun t _ => flushed_eq m c t) cover

/-- The kernel's run: the result array ends at the specification of the gathered rows and the launched weights and
    biases, the arguments unchanged. -/
theorem run : θ_run defs (onTc (τ := τ) (main (F := Ideal))) ⟨m, fun _ => 0, ρ⟩ fun r => ∀ c : Dev nD,
      r.2.mem ((c : Thread nD τ).loc main_v10)
          = Cert.HetAgg.G (gathered (F := Ideal) (m ((c : Thread nD τ).loc main_arg0)) (m ((c : Thread nD τ).loc main_arg5))) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (by
      rw [final m c, garr_eq, w1arr_eq, b1arr_eq, w2arr_eq, b2arr_eq]), (h c).2⟩)
    (Value.run_blocks m ρ)

end Cert.KernelIdeal.ArrayValue

end
-- ==== Proof.RefTerm.lean ====
/-
  The reference's result as ONE term of its arguments: the row gather (with jnp's wrap of a negative row number),
  then the per-edge-type contraction, bias and rectifier, the transposition that brings the batch axis first, the
  reshape that lays the fourteen groups of 128 features side by side, the shared contraction, bias and rectifier.
  Each line is the operation the printed program applies, in its order.
-/
import proofs.«163783_j36077725287020_1_alg».proof.Proof.Gen.ReferenceIdeal

noncomputable section

namespace Cert.ReferenceIdeal.Composed

open Cert.ReferenceIdeal Cert.ReferenceIdeal.Gen Idealize.ShloMosaic Idealize.ShloMosaic.TcCoe

variable {F : FTy → Type} [FloatOps F]

/-- The gathered rows: row number `i` of every edge type's feature table, `i` read off the index vector with a
    negative entry moved up by the table's 10000 rows first. -/
def gathered (x : FVec F S14x10000x1536 .f32) (idx : IVec S8192 32) : FVec F S14x8192x1536 .f32 :=
  Host.gather gather_S14x10000x1536_S8192x1_S14x8192x1536_02_1_n_n_1_1_1411536 x
    (broadcastInDim S8192x1 ![0] bcast_S8192_S8192x1_0
      (select (cmpi .slt idx (broadcastInDim S8192 ![] bcast_S_S8192 (constantI S_ 32 0#32)))
        (addi idx (broadcastInDim S8192 ![] bcast_S_S8192 (constantI S_ 32 10000#32))) idx))

/-- The rectifier the reference applies to a whole array: where the entry is at least zero the entry, elsewhere the
    slope word times it. -/
def rectify (S : Shape) (h : S_.BroadcastsInDim S (![] : Fin 0 → Fin S.rank)) (x : FVec F S .f32) : FVec F S .f32 :=
  select (cmpf .oge x (broadcastInDim S ![] h (constant S_ .f32 0x00000000#32))) x
    (mulf (broadcastInDim S ![] h (id (constant S_ .f32 0x3C23D70A#32))) x)

/-- Everything after the gather. -/
def tail (g : FVec F S14x8192x1536 .f32) (W1 : FVec F S14x1536x128 .f32) (b1 : FVec F S14x128 .f32)
    (W2 : FVec F S1792x128 .f32) (b2 : FVec F S128 .f32) : FVec F S8192x128 .f32 :=
  rectify S8192x128 bcast_S_S8192x128
    (addf
      (Host.dotGeneral dot_S8192x1792_S1792x128_S8192x128_1_0_0_1_n_n none
        (shapeCast S8192x1792
          (transpose S8192x14x128 [1, 0, 2]
            (rectify S14x8192x128 bcast_S_S14x8192x128
              (addf (Host.dotGeneral dot_S14x8192x1536_S14x1536x128_S14x8192x128_2_1_1_2_0_0 none g W1)
                (broadcastInDim S14x8192x128 ![0, 1, 2] bcast_S14x1x128_S14x8192x128_0_1_2
                  (broadcastInDim S14x1x128 ![0, 2] bcast_S14x128_S14x1x128_0_2 b1))))
            transposes_S14x8192x128_S8192x14x128_1_0_2)
          shapeCasts_S8192x14x128_S8192x1792)
        W2)
      (broadcastInDim S8192x128 ![0, 1] bcast_S1x128_S8192x128_0_1
        (broadcastInDim S1x128 ![1] bcast_S128_S1x128_1 b2)))

end Cert.ReferenceIdeal.Composed

end
-- ==== Proof.RefRun.lean ====
/-
  The reference program's run: its @main is a straight line of host operations (the two rectifier calls and the
  selections inside them written out at their call sites), so every weakly fair execution terminates with the result
  buffer at the operations' composed term of the arguments and the arguments unchanged.
-/
import proofs.«163783_j36077725287020_1_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's thirty-five operations, in order. The first eight compute the row numbers (a negative entry of the index
    vector moved up by 10000); then the gather, the per-edge-type contraction, its bias broadcast twice and added, and
    the slope constant; the first rectifier is seven operations over its own buffers (the zero, its broadcast, the
    comparison, the slope converted, its broadcast, the product, the selection); then the transposition, the reshape,
    the shared contraction, its bias broadcast twice and added, the slope constant again; the second rectifier is the
    same seven operations at the result's shape. -/
abbrev ops : List (HloOp τ sig (Elt F)) :=
  [ nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg5 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 10000#32),
    unary main_c_0 main_v2 (broadcastInDim S8192 ![] bcast_S_S8192 : (⟨S_, .i32⟩ : BufTy).Contents (Elt F) → (⟨S8192, .i32⟩ : BufTy).Contents (Elt F)),
    binary main_arg5 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg5 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg0 main_v5 main_v6 ((fun x i => Host.gather gather_S14x10000x1536_S8192x1_S14x8192x1536_02_1_n_n_1_1_1411536 x i) : (⟨S14x10000x1536, .f32⟩ : BufTy).Contents (Elt F) → (⟨S8192x1, .i32⟩ : BufTy).Contents (Elt F) → (⟨S14x8192x1536, .f32⟩ : BufTy).Contents (Elt F)),
    binary main_v6 main_arg1 main_v7 ((fun l r => Host.dotGeneral dot_S14x8192x1536_S14x1536x128_S14x8192x128_2_1_1_2_0_0 none l r) : (⟨S14x8192x1536, .f32⟩ : BufTy).Contents (Elt F) → (⟨S14x1536x128, .f32⟩ : BufTy).Contents (Elt F) → (⟨S14x8192x128, .f32⟩ : BufTy).Contents (Elt F)),
    unary main_arg2 main_v8 (broadcastInDim S14x1x128 ![0, 2] bcast_S14x128_S14x1x128_0_2 : (⟨S14x128, .f32⟩ : BufTy).Contents (Elt F) → (⟨S14x1x128, .f32⟩ : BufTy).Contents (Elt F)),
    unary main_v8 main_v9 (broadcastInDim S14x8192x128 ![0, 1, 2] bcast_S14x1x128_S14x8192x128_0_1_2 : (⟨S14x1x128, .f32⟩ : BufTy).Contents (Elt F) → (⟨S14x8192x128, .f32⟩ : BufTy).Contents (Elt F)),
    binary main_v7 main_v9 main_v10 (addf : (⟨S14x8192x128, .f32⟩ : BufTy).Contents (Elt F) → (⟨S14x8192x128, .f32⟩ : BufTy).Contents (Elt F) → (⟨S14x8192x128, .f32⟩ : BufTy).Contents (Elt F)),
    nullary main_cst (constant S_ .f32 0x3C23D70A#32),
    TRef.nullary main_call0.cst (constant S_ .f32 0x00000000#32),
    TRef.unary main_call0.cst main_call0.v0 (broadcastInDim S14x8192x128 ![] bcast_S_S14x8192x128),
    TRef.binary (.of main_v10) main_call0.v0 main_call0.v1 (cmpf .oge),
    TRef.unary (.of main_cst) main_call0.v2 id,
    TRef.unary main_call0.v2 main_call0.v3 (broadcastInDim S14x8192x128 ![] bcast_S_S14x8192x128),
    TRef.binary main_call0.v3 (.of main_v10) main_call0.v4 mulf,
    TRef.ternary main_call0.v1 (.of main_v10) main_call0.v4 main_call0.call0.v0 select,
    unary main_v11 main_v12 ((transpose S8192x14x128 [1, 0, 2] · transposes_S14x8192x128_S8192x14x128_1_0_2) : (⟨S14x8192x128, .f32⟩ : BufTy).Contents (Elt F) → (⟨S8192x14x128, .f32⟩ : BufTy).Contents (Elt F)),
    reshape main_v12 main_v13 rfl shapeCasts_S8192x14x128_S8192x1792,
    binary main_v13 main_arg3 main_v14 ((fun l r => Host.dotGeneral dot_S8192x1792_S1792x128_S8192x128_1_0_0_1_n_n none l r) : (⟨S8192x1792, .f32⟩ : BufTy).Contents (Elt F) → (⟨S1792x128, .f32⟩ : BufTy).Contents (Elt F) → (⟨S8192x128, .f32⟩ : BufTy).Contents (Elt F)),
    unary main_arg4 main_v15 (broadcastInDim S1x128 ![1] bcast_S128_S1x128_1 : (⟨S128, .f32⟩ : BufTy).Contents (Elt F) → (⟨S1x128, .f32⟩ : BufTy).Contents (Elt F)),
    unary main_v15 main_v16 (broadcastInDim S8192x128 ![0, 1] bcast_S1x128_S8192x128_0_1 : (⟨S1x128, .f32⟩ : BufTy).Contents (Elt F) → (⟨S8192x128, .f32⟩ : BufTy).Contents (Elt F)),
    binary main_v14 main_v16 main_v17 (addf : (⟨S8192x128, .f32⟩ : BufTy).Contents (Elt F) → (⟨S8192x128, .f32⟩ : BufTy).Contents (Elt F) → (⟨S8192x128, .f32⟩ : BufTy).Contents (Elt F)),
    nullary main_cst_1 (constant S_ .f32 0x3C23D70A#32),
    TRef.nullary main_call1.cst (constant S_ .f32 0x00000000#32),
    TRef.unary main_call1.cst main_call1.v0 (broadcastInDim S8192x128 ![] bcast_S_S8192x128),
    TRef.binary (.of main_v17) main_call1.v0 main_call1.v1 (cmpf .oge),
    TRef.unary (.of main_cst_1) main_call1.v2 id,
    TRef.unary main_call1.v2 main_call1.v3 (broadcastInDim S8192x128 ![] bcast_S_S8192x128),
    TRef.binary main_call1.v3 (.of main_v17) main_call1.v4 mulf,
    TRef.ternary main_call1.v1 (.of main_v17) main_call1.v4 main_call1.call0.v0 select ]

set_option maxRecDepth 2048 in
/-- @main is that straight line: the two rectifiers and their selections unfolded at their calls, both sides are one
    chain of steps once sequencing is reassociated. -/
theorem main_eq (c : Dev nD) : main (F := F) c = seq ops := by
  simp only [main, fn_leaky_relu.body, fn_where.body, fn_leaky_relu_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub ..,
    ternary_bufs_sub ..,
    unary_bufs_sub .., reshape_bufs_sub .., binary_bufs_sub .., unary_bufs_sub .., unary_bufs_sub .., binary_bufs_sub ..,
    nullary_bufs_sub ..,
    nullary_bufs_sub .., unary_bufs_sub .., binary_bufs_sub .., unary_bufs_sub .., unary_bufs_sub .., binary_bufs_sub ..,
    ternary_bufs_sub ..⟩

attribute [local irreducible] Host.gather in
set_option maxRecDepth 8192 in
/-- What the result buffer holds after the line, from contents `V`: the composed term at `V`'s argument buffers. Each
    operation's result is read at its own buffer and passed over at every other; the transports of the two
    rectifiers' buffer records are the identity at these literal buffers, so what is left is the composed term
    itself. -/
theorem out_eq (V : Valuation τ sig (Elt F)) :
    after ops V (main_v18 : DevRef τ sig)
      = Composed.tail (Composed.gathered (V (main_arg0 : DevRef τ sig)) (V (main_arg5 : DevRef τ sig)))
          (V (main_arg1 : DevRef τ sig)) (V (main_arg2 : DevRef τ sig)) (V (main_arg3 : DevRef τ sig))
          (V (main_arg4 : DevRef τ sig)) := by
  after_results_simp
  unfold Composed.tail Composed.gathered Composed.rectify
  rfl

/-- No operation of the line writes an argument buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-- On the device, for any float values, from any memory with zero counters: every weakly fair execution of @main
    terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = Composed.tail (Composed.gathered (m ((c.tc : Thread nD τ).loc main_arg0)) (m ((c.tc : Thread nD τ).loc main_arg5))) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v18).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.HandRun

end
-- ==== Proof.RefValue.lean ====
/-
  The reference's composed term, read index by index on the extended reals, is the specification: each contraction a
  plain sum over its one contracted axis, each broadcast bias read at the axes it keeps, the transposition and the
  reshape together sending column `j` of a row to edge type `j / 128`, feature `j % 128`.
-/
import proofs.«163783_j36077725287020_1_alg».proof.Proof.RefTerm
import proofs.«163783_j36077725287020_1_alg».proof.Proof.AggSpec
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.TcCoe Idealize.ShloMosaic.ValueIdx
open scoped BigOperators

/-! ## The rectifier at an index -/

/-- The rectifier read at an index is the leaky rectifier of the entry: the two broadcast scalars read their words
    everywhere, the comparison, the product and the select read entrywise. -/
theorem rectify_apply (S : Shape) (h : S_.BroadcastsInDim S (![] : Fin 0 → Fin S.rank)) (x : FVec Ideal S .f32) (i : S.Idx) :
    Composed.rectify (F := Ideal) S h x i = Cert.HetAgg.lrelu (x i) := by
  unfold Composed.rectify
  rfl

/-! ## The shared contraction: rows of length 1792 against the shared weights -/

/-- Left operand, axis 0 (kept): the result's row. -/
theorem d2_lhs0 (j : S8192x128.Idx) (q : dot_S8192x1792_S1792x128_S8192x128_1_0_0_1_n_n.contr.Idx) :
    (dot_S8192x1792_S1792x128_S8192x128_1_0_0_1_n_n.lhsIdx j q 0).val = (j 0).val := by
  unfold DotDims.lhsIdx
  rw [dif_neg (by decide), dif_pos (by decide)]
  rfl

/-- Left operand, axis 1 (contracted): the contraction position. -/
theorem d2_lhs1 (j : S8192x128.Idx) (q : dot_S8192x1792_S1792x128_S8192x128_1_0_0_1_n_n.contr.Idx) :
    (dot_S8192x1792_S1792x128_S8192x128_1_0_0_1_n_n.lhsIdx j q 1).val = (q ⟨0, by decide⟩).val :=
  DotDims.lhsIdx_val_of_single _ rfl j q

/-- Right operand, axis 0 (contracted): the contraction position. -/
theorem d2_rhs0 (j : S8192x128.Idx) (q : dot_S8192x1792_S1792x128_S8192x128_1_0_0_1_n_n.contr.Idx) :
    (dot_S8192x1792_S1792x128_S8192x128_1_0_0_1_n_n.rhsIdx j q 0).val = (q ⟨0, by decide⟩).val :=
  DotDims.rhsIdx_val_of_single _ rfl j q

/-- Right operand, axis 1 (kept): the result's column. -/
theorem d2_rhs1 (j : S8192x128.Idx) (q : dot_S8192x1792_S1792x128_S8192x128_1_0_0_1_n_n.contr.Idx) :
    (dot_S8192x1792_S1792x128_S8192x128_1_0_0_1_n_n.rhsIdx j q 1).val = (j 1).val := by
  unfold DotDims.rhsIdx
  rw [dif_neg (by decide), dif_pos (by decide)]
  rfl

/-- The contraction positions of the shared contraction are the 1792 columns. -/
abbrev e2 : dot_S8192x1792_S1792x128_S8192x128_1_0_0_1_n_n.contr.Idx ≃ Fin 1792 :=
  contrEquiv1 dot_S8192x1792_S1792x128_S8192x128_1_0_0_1_n_n 1792 rfl rfl

/-- Left operand of the shared contraction at result `(b, k)`, column `q`: entry `(b, q)`. -/
theorem d2_lhsIdx (b : Fin 8192) (k : Fin 128) (q : Fin 1792) :
    dot_S8192x1792_S1792x128_S8192x128_1_0_0_1_n_n.lhsIdx (ix2 b k) (e2.symm q) = ix2 b q := by
  funext a
  match a with
  | ⟨0, _⟩ => exact Fin.ext (d2_lhs0 (ix2 b k) (e2.symm q))
  | ⟨1, _⟩ =>
    exact Fin.ext ((d2_lhs1 (ix2 b k) (e2.symm q)).trans
      (contrEquiv1_symm_val dot_S8192x1792_S1792x128_S8192x128_1_0_0_1_n_n 1792 rfl rfl q))

/-- Right operand of the shared contraction at result `(b, k)`, column `q`: entry `(q, k)`. -/
theorem d2_rhsIdx (b : Fin 8192) (k : Fin 128) (q : Fin 1792) :
    dot_S8192x1792_S1792x128_S8192x128_1_0_0_1_n_n.rhsIdx (ix2 b k) (e2.symm q) = ix2 q k := by
  funext a
  match a with
  | ⟨0, _⟩ =>
    exact Fin.ext ((d2_rhs0 (ix2 b k) (e2.symm q)).trans
      (contrEquiv1_symm_val dot_S8192x1792_S1792x128_S8192x128_1_0_0_1_n_n 1792 rfl rfl q))
  | ⟨1, _⟩ => exact Fin.ext (d2_rhs1 (ix2 b k) (e2.symm q))

/-- The shared contraction at row `b`, column `k`: the sum over the 1792 columns of the row's entry times the weight. -/
theorem dot2_apply (l : FVec Ideal S8192x1792 .f32) (r : FVec Ideal S1792x128 .f32) (b : Fin 8192) (k : Fin 128) :
    Host.dotGeneral dot_S8192x1792_S1792x128_S8192x128_1_0_0_1_n_n none l r (ix2 b k)
      = ∑ q : Fin 1792, l (ix2 b q) * r (ix2 q k) := by
  refine (Ideal.dotGeneral_apply dot_S8192x1792_S1792x128_S8192x128_1_0_0_1_n_n none .single l r (ix2 b k)).trans ?_
  rw [← Equiv.sum_comp e2.symm]
  refine Finset.sum_congr rfl fun q _ => ?_
  rw [d2_lhsIdx b k q, d2_rhsIdx b k q]

/-! ## The per-edge-type contraction: edge type on axis 0 of both operands, feature rows of length 1536 -/

/-- Left operand, axis 0 (edge type): the result's edge type. -/
theorem d1_lhs0 (j : S14x8192x128.Idx) (q : dot_S14x8192x1536_S14x1536x128_S14x8192x128_2_1_1_2_0_0.contr.Idx) :
    (dot_S14x8192x1536_S14x1536x128_S14x8192x128_2_1_1_2_0_0.lhsIdx j q 0).val = (j 0).val := by
  unfold DotDims.lhsIdx
  rw [dif_pos (by decide)]
  rfl

/-- Left operand, axis 1 (kept): the result's row. -/
theorem d1_lhs1 (j : S14x8192x128.Idx) (q : dot_S14x8192x1536_S14x1536x128_S14x8192x128_2_1_1_2_0_0.contr.Idx) :
    (dot_S14x8192x1536_S14x1536x128_S14x8192x128_2_1_1_2_0_0.lhsIdx j q 1).val = (j 1).val := by
  unfold DotDims.lhsIdx
  rw [dif_neg (by decide), dif_pos (by decide)]
  rfl

/-- Left operand, axis 2 (contracted): the contraction position. -/
theorem d1_lhs2 (j : S14x8192x128.Idx) (q : dot_S14x8192x1536_S14x1536x128_S14x8192x128_2_1_1_2_0_0.contr.Idx) :
    (dot_S14x8192x1536_S14x1536x128_S14x8192x128_2_1_1_2_0_0.lhsIdx j q 2).val = (q ⟨0, by decide⟩).val :=
  DotDims.lhsIdx_val_of_single _ rfl j q

/-- Right operand, axis 0 (edge type): the result's edge type. -/
theorem d1_rhs0 (j : S14x8192x128.Idx) (q : dot_S14x8192x1536_S14x1536x128_S14x8192x128_2_1_1_2_0_0.contr.Idx) :
    (dot_S14x8192x1536_S14x1536x128_S14x8192x128_2_1_1_2_0_0.rhsIdx j q 0).val = (j 0).val := by
  unfold DotDims.rhsIdx
  rw [dif_pos (by decide)]
  rfl

/-- Right operand, axis 1 (contracted): the contraction position. -/
theorem d1_rhs1 (j : S14x8192x128.Idx) (q : dot_S14x8192x1536_S14x1536x128_S14x8192x128_2_1_1_2_0_0.contr.Idx) :
    (dot_S14x8192x1536_S14x1536x128_S14x8192x128_2_1_1_2_0_0.rhsIdx j q 1).val = (q ⟨0, by decide⟩).val :=
  DotDims.rhsIdx_val_of_single _ rfl j q

/-- Right operand, axis 2 (kept): the result's feature. -/
theorem d1_rhs2 (j : S14x8192x128.Idx) (q : dot_S14x8192x1536_S14x1536x128_S14x8192x128_2_1_1_2_0_0.contr.Idx) :
    (dot_S14x8192x1536_S14x1536x128_S14x8192x128_2_1_1_2_0_0.rhsIdx j q 2).val = (j 2).val := by
  unfold DotDims.rhsIdx
  rw [dif_neg (by decide), dif_pos (by decide)]
  rfl

/-- The contraction positions of the per-edge-type contraction are the 1536 gathered features. -/
abbrev e1 : dot_S14x8192x1536_S14x1536x128_S14x8192x128_2_1_1_2_0_0.contr.Idx ≃ Fin 1536 :=
  contrEquiv1 dot_S14x8192x1536_S14x1536x128_S14x8192x128_2_1_1_2_0_0 1536 rfl rfl

/-- Left operand of the per-edge-type contraction at result `(e, b, k)`, feature `q`: entry `(e, b, q)`. -/
theorem d1_lhsIdx (e : Fin 14) (b : Fin 8192) (k : Fin 128) (q : Fin 1536) :
    dot_S14x8192x1536_S14x1536x128_S14x8192x128_2_1_1_2_0_0.lhsIdx (ix3 e b k) (e1.symm q) = ix3 e b q := by
  funext a
  match a with
  | ⟨0, _⟩ => exact Fin.ext (d1_lhs0 (ix3 e b k) (e1.symm q))
  | ⟨1, _⟩ => exact Fin.ext (d1_lhs1 (ix3 e b k) (e1.symm q))
  | ⟨2, _⟩ =>
    exact Fin.ext ((d1_lhs2 (ix3 e b k) (e1.symm q)).trans
      (contrEquiv1_symm_val dot_S14x8192x1536_S14x1536x128_S14x8192x128_2_1_1_2_0_0 1536 rfl rfl q))

/-- Right operand of the per-edge-type contraction at result `(e, b, k)`, feature `q`: entry `(e, q, k)`. -/
theorem d1_rhsIdx (e : Fin 14) (b : Fin 8192) (k : Fin 128) (q : Fin 1536) :
    dot_S14x8192x1536_S14x1536x128_S14x8192x128_2_1_1_2_0_0.rhsIdx (ix3 e b k) (e1.symm q) = ix3 e q k := by
  funext a
  match a with
  | ⟨0, _⟩ => exact Fin.ext (d1_rhs0 (ix3 e b k) (e1.symm q))
  | ⟨1, _⟩ =>
    exact Fin.ext ((d1_rhs1 (ix3 e b k) (e1.symm q)).trans
      (contrEquiv1_symm_val dot_S14x8192x1536_S14x1536x128_S14x8192x128_2_1_1_2_0_0 1536 rfl rfl q))
  | ⟨2, _⟩ => exact Fin.ext (d1_rhs2 (ix3 e b k) (e1.symm q))

/-- The per-edge-type contraction at edge type `e`, row `b`, feature `k`: the sum over the 1536 gathered features of
    the row's entry times that edge type's weight. -/
theorem dot1_apply (l : FVec Ideal S14x8192x1536 .f32) (r : FVec Ideal S14x1536x128 .f32) (e : Fin 14) (b : Fin 8192)
    (k : Fin 128) :
    Host.dotGeneral dot_S14x8192x1536_S14x1536x128_S14x8192x128_2_1_1_2_0_0 none l r (ix3 e b k)
      = ∑ q : Fin 1536, l (ix3 e b q) * r (ix3 e q k) := by
  refine (Ideal.dotGeneral_apply dot_S14x8192x1536_S14x1536x128_S14x8192x128_2_1_1_2_0_0 none .single l r (ix3 e b k)).trans ?_
  rw [← Equiv.sum_comp e1.symm]
  refine Finset.sum_congr rfl fun q _ => ?_
  rw [d1_lhsIdx e b k q, d1_rhsIdx e b k q]

/-! ## The two broadcast biases -/

/-- The per-edge-type bias, broadcast along the rows, read at edge type `e`, row `b`, feature `k`: entry `(e, k)`. -/
theorem bias1_apply (b1 : FVec Ideal S14x128 .f32) (e : Fin 14) (b : Fin 8192) (k : Fin 128) :
    broadcastInDim S14x8192x128 ![0, 1, 2] bcast_S14x1x128_S14x8192x128_0_1_2
        (broadcastInDim S14x1x128 ![0, 2] bcast_S14x128_S14x1x128_0_2 b1) (ix3 e b k) = b1 (ix2 e k) := by
  refine (broadcastInDim_apply ![0, 1, 2] bcast_S14x1x128_S14x8192x128_0_1_2 _ (ix3 e b k)
    (ix3 e (0 : Fin 1) k) fun a => ?_).trans ?_
  · match a with
    | ⟨0, _⟩ => rfl
    | ⟨1, _⟩ => rfl
    | ⟨2, _⟩ => rfl
  · refine broadcastInDim_apply ![0, 2] bcast_S14x128_S14x1x128_0_2 b1 (ix3 e (0 : Fin 1) k) (ix2 e k) fun a => ?_
    match a with
    | ⟨0, _⟩ => rfl
    | ⟨1, _⟩ => rfl

/-- The shared bias, broadcast along the rows, read at row `b`, feature `k`: entry `k`. -/
theorem bias2_apply (b2 : FVec Ideal S128 .f32) (b : Fin 8192) (k : Fin 128) :
    broadcastInDim S8192x128 ![0, 1] bcast_S1x128_S8192x128_0_1
        (broadcastInDim S1x128 ![1] bcast_S128_S1x128_1 b2) (ix2 b k) = b2 (ix1 k) := by
  refine (broadcastInDim_apply ![0, 1] bcast_S1x128_S8192x128_0_1 _ (ix2 b k)
    (ix2 (0 : Fin 1) k) fun a => ?_).trans ?_
  · match a with
    | ⟨0, _⟩ => rfl
    | ⟨1, _⟩ => rfl
  · refine broadcastInDim_apply ![1] bcast_S128_S1x128_1 b2 (ix2 (0 : Fin 1) k) (ix1 k) fun a => ?_
    match a with
    | ⟨0, _⟩ => rfl

/-! ## The transposition and the reshape -/

/-- Bringing the row axis first: entry `(b, e, k)` of the transposed array is entry `(e, b, k)` of the operand. -/
theorem transpose_apply' (x : FVec Ideal S14x8192x128 .f32) (b : Fin 8192) (e : Fin 14) (k : Fin 128) :
    transpose S8192x14x128 [1, 0, 2] x transposes_S14x8192x128_S8192x14x128_1_0_2 (ix3 b e k) = x (ix3 e b k) := by
  refine transpose_apply [1, 0, 2] x transposes_S14x8192x128_S8192x14x128_1_0_2 (ix3 b e k) (ix3 e b k) fun a => ?_
  match a with
  | ⟨0, _⟩ => rfl
  | ⟨1, _⟩ => rfl
  | ⟨2, _⟩ => rfl

/-- Laying the fourteen groups of 128 side by side: column `j` of row `b` is entry `(b, j / 128, j % 128)`, the two
    having the same row-major position `b * 1792 + j`. -/
theorem shapeCast_apply' (y : FVec Ideal S8192x14x128 .f32) (b : Fin 8192) (j : Fin 1792) :
    shapeCast S8192x1792 y shapeCasts_S8192x14x128_S8192x1792 (ix2 b j)
      = y (ix3 b (⟨j.val / 128, by have := j.isLt; omega⟩ : Fin 14) (⟨j.val % 128, Nat.mod_lt _ (by decide)⟩ : Fin 128)) := by
  refine shapeCast_apply y shapeCasts_S8192x14x128_S8192x1792 (ix2 b j) _ ?_
  rw [Shape.rowMajor_val_three, Shape.rowMajor_val_two]
  show (b.val * 14 + j.val / 128) * 128 + j.val % 128 = b.val * 1792 + j.val
  omega

/-! ## Assembly -/

/-- The first layer at edge type `e`, row `b`, feature `k` is the specification's hidden feature. -/
theorem first_apply (g : FVec Ideal S14x8192x1536 .f32) (W1 : FVec Ideal S14x1536x128 .f32) (b1 : FVec Ideal S14x128 .f32)
    (e : Fin 14) (b : Fin 8192) (k : Fin 128) :
    Composed.rectify (F := Ideal) S14x8192x128 bcast_S_S14x8192x128
        (addf (Host.dotGeneral dot_S14x8192x1536_S14x1536x128_S14x8192x128_2_1_1_2_0_0 none g W1)
          (broadcastInDim S14x8192x128 ![0, 1, 2] bcast_S14x1x128_S14x8192x128_0_1_2
            (broadcastInDim S14x1x128 ![0, 2] bcast_S14x128_S14x1x128_0_2 b1))) (ix3 e b k)
      = Cert.HetAgg.hidden g W1 b1 e b k := by
  rw [rectify_apply, addf_apply, dot1_apply, bias1_apply]
  rfl

/-- Column `j` of row `b` of the transposed and reshaped first layer is the specification's aggregated row. -/
theorem agg_apply (g : FVec Ideal S14x8192x1536 .f32) (W1 : FVec Ideal S14x1536x128 .f32) (b1 : FVec Ideal S14x128 .f32)
    (b : Fin 8192) (j : Fin 1792) :
    shapeCast S8192x1792
        (transpose S8192x14x128 [1, 0, 2]
          (Composed.rectify (F := Ideal) S14x8192x128 bcast_S_S14x8192x128
            (addf (Host.dotGeneral dot_S14x8192x1536_S14x1536x128_S14x8192x128_2_1_1_2_0_0 none g W1)
              (broadcastInDim S14x8192x128 ![0, 1, 2] bcast_S14x1x128_S14x8192x128_0_1_2
                (broadcastInDim S14x1x128 ![0, 2] bcast_S14x128_S14x1x128_0_2 b1))))
          transposes_S14x8192x128_S8192x14x128_1_0_2)
        shapeCasts_S8192x14x128_S8192x1792 (ix2 b j)
      = Cert.HetAgg.agg g W1 b1 b j := by
  rw [shapeCast_apply', transpose_apply', first_apply]
  rfl

/-- The composed term is the specification, index by index. -/
theorem tail_eq (g : FVec Ideal S14x8192x1536 .f32) (W1 : FVec Ideal S14x1536x128 .f32) (b1 : FVec Ideal S14x128 .f32)
    (W2 : FVec Ideal S1792x128 .f32) (b2 : FVec Ideal S128 .f32) :
    Composed.tail (F := Ideal) g W1 b1 W2 b2 = Cert.HetAgg.G g W1 b1 W2 b2 := by
  funext i
  obtain ⟨b, k, rfl⟩ : ∃ (b : Fin 8192) (k : Fin 128), i = ix2 b k := ⟨i 0, i 1, eq_ix2 i⟩
  rw [Cert.HetAgg.G_ix2]
  unfold Composed.tail Cert.HetAgg.outAt
  rw [rectify_apply, addf_apply, dot2_apply, bias2_apply]
  refine congrArg (fun s => Cert.HetAgg.lrelu (s + b2 (ix1 k))) (Finset.sum_congr rfl fun j _ => ?_)
  rw [agg_apply]

end Cert.ReferenceIdeal.RefValue

end
-- ==== Proof.lean ====
/-
  A heterogeneous-graph aggregation layer against its plain array formulation.

  For each of 8192 batch entries a row number is read off an index vector (a negative number moved up by the table's
  10000 rows) and, for each of fourteen edge types, that row of the edge type's feature table is gathered: 1536 features.
  Edge type `e` contracts its gathered row with its own 1536 × 128 weights, adds its own bias and applies the leaky
  rectifier (the entry where it is at least zero, else the entry times the number the f32 word `0x3C23D70A` denotes);
  the fourteen groups of 128 hidden features are laid side by side into a row of 1792, which is contracted with the
  shared 1792 × 128 weights, shifted by the shared bias and rectified again.

  The kernel gathers on the host, then walks the batch in 32 blocks of 256 rows: at each block it computes the fourteen
  hidden blocks one after the other, concatenates them along the feature axis and applies the last layer; its changes
  of float format are the identity on the extended reals.  The reference computes every edge type at once by a batched
  contraction, and brings the groups side by side by a transposition and a reshape.  Read index by index, both are the
  same two finite sums of products on the extended reals, over the same index sets in the same order, so no law of
  the extended reals beyond that reading is used, and the inputs' finiteness is never needed:

  * `Cert.HetAgg.G` (AggSpec) is the common function of the gathered rows, the weights and the biases;
  * the kernel's result array is `G` of its arrays (KernelValue: what a grid point writes back is `G` on the block's
    rows, by KernelBlock over EdgePieces and LastLayer, and the 32 blocks tile the rows);
  * the reference's result is its operations' composed term (RefRun), which is `G` as well (RefValue);
  * the two programs gather the same rows by the same operations.

  The three frame claims are the kernel programs' frames and the reference's run with the result dropped; the
  idealization rewrote no operation, so there is nothing to preserve.
-/
import proofs.«163783_j36077725287020_1_alg».proof.Defs
import proofs.«163783_j36077725287020_1_alg».proof.Proof.Gen.Kernel
import proofs.«163783_j36077725287020_1_alg».proof.Proof.Gen.Kernel.Skeleton
import proofs.«163783_j36077725287020_1_alg».proof.Proof.Gen.Kernel.Launch
import proofs.«163783_j36077725287020_1_alg».proof.Proof.Gen.Kernel.Points
import proofs.«163783_j36077725287020_1_alg».proof.Proof.Gen.Kernel.Frame
import proofs.«163783_j36077725287020_1_alg».proof.Proof.Gen.KernelIdeal
import proofs.«163783_j36077725287020_1_alg».proof.Proof.Gen.KernelIdeal.Skeleton
import proofs.«163783_j36077725287020_1_alg».proof.Proof.Gen.KernelIdeal.Launch
import proofs.«163783_j36077725287020_1_alg».proof.Proof.Gen.KernelIdeal.Points
import proofs.«163783_j36077725287020_1_alg».proof.Proof.Gen.KernelIdeal.Frame
import proofs.«163783_j36077725287020_1_alg».proof.Proof.Gen.KernelIdeal.Value
import proofs.«163783_j36077725287020_1_alg».proof.Proof.Gen.ReferenceIdeal
import proofs.«163783_j36077725287020_1_alg».proof.Proof.Gen.Pre_finite_inputs
import proofs.«163783_j36077725287020_1_alg».proof.Proof.KernelValue
import proofs.«163783_j36077725287020_1_alg».proof.Proof.RefRun
import proofs.«163783_j36077725287020_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- The two programs gather the same rows: the same wrap of a negative row number, the same gather. -/
theorem gathered_eq (x : FVec Ideal Cert.ReferenceIdeal.S14x10000x1536 .f32) (idx : IVec Cert.ReferenceIdeal.S8192 32) :
    Cert.ReferenceIdeal.Composed.gathered (F := Ideal) x idx = Cert.KernelIdeal.ArrayValue.gathered (F := Ideal) x idx := rfl

/-- From memories that agree on the arguments both programs end with the common function of the gathered rows, the
    weights and the biases in their result arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2.1, (hagree c).2.2.2.2.2,
    Cert.ReferenceIdeal.RefValue.tail_eq, gathered_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
